-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S3200000 : Shape := ⟨1, ![3200000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3200000 : S_.BroadcastsInDim S3200000 (![] : Fin 0 → Fin S3200000.rank)
  reducesTo_S3200000_S_d0 : S3200000.ReducesTo [0] S_

variable [Facts]

def fn {F : FTy → Type} [FloatOps F] (main_arg0 : FVec F S100000x3 .f32) (main_arg1 : IVec S3200000 32) (main_arg2 : IVec S3200000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_c_0 : IVec S_ 32 := constantI S_ 32 4294867296#32
  let main_v4 : IVec S3200000 32 := broadcastInDim S3200000 ![] bcast_S_S3200000 main_c_0
  let main_v5 : IVec S3200000 1 := cmpi .sge main_arg1 main_v4
  let main_c_1 : IVec S_ 32 := constantI S_ 32 100000#32
  let main_v6 : IVec S3200000 32 := broadcastInDim S3200000 ![] bcast_S_S3200000 main_c_1
  let main_v7 : IVec S3200000 1 := cmpi .slt main_arg1 main_v6
  let main_v8 : IVec S3200000 1 := andi main_v5 main_v7
  let main_c_2 : IVec S_ 1 := constantI S_ 1 1#1
  let main_v9 : IVec S_ 1 := (fun x v => Host.reduce IntOp.andi x v reducesTo_S3200000_S_d0 h_S_) main_v8 main_c_2
  let main_v10 : IVec S_ 1 := andi main_v3 main_v9
  main_v10
-- ==== Kernel.lean ====
abbrev S100000x3 : Shape := ⟨2, ![100000, 3]⟩
abbrev S3200000 : Shape := ⟨1, ![3200000]⟩
abbrev S3x100000 : Shape := ⟨2, ![3, 100000]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3x3200000 : Shape := ⟨2, ![3, 3200000]⟩
abbrev S9x3200000 : Shape := ⟨2, ![9, 3200000]⟩
abbrev S3x80000 : Shape := ⟨2, ![3, 80000]⟩
abbrev S9x80000 : Shape := ⟨2, ![9, 80000]⟩
abbrev S1x80000 : Shape := ⟨2, ![1, 80000]⟩
abbrev S80000 : Shape := ⟨1, ![80000]⟩
abbrev S3200000x9 : Shape := ⟨2, ![3200000, 9]⟩
abbrev S100000x9 : Shape := ⟨2, ![100000, 9]⟩
abbrev S100000x1 : Shape := ⟨2, ![100000, 1]⟩
abbrev S100000 : Shape := ⟨1, ![100000]⟩
abbrev S100000x8 : Shape := ⟨2, ![100000, 8]⟩

abbrev nBuf : Space → Nat
  | .hbm => 72
  | .vmem => 4
  | .smem => 0
  | _ => 0

abbrev bufTy : (tb : Table) → Fin (tcTables nBuf tb) → BufTy
  | .hbm, ⟨0, _⟩ => ⟨S100000x3, .f32⟩
  | .hbm, ⟨1, _⟩ => ⟨S3200000, .i32⟩
  | .hbm, ⟨2, _⟩ => ⟨S3200000, .i32⟩
  | .hbm, ⟨3, _⟩ => ⟨S3x100000, .f32⟩
  | .hbm, ⟨4, _⟩ => ⟨S_, .i32⟩
  | .hbm, ⟨5, _⟩ => ⟨S3200000, .i32⟩
  | .hbm, ⟨6, _⟩ => ⟨S3200000, .i1⟩
  | .hbm, ⟨7, _⟩ => ⟨S_, .i32⟩
  | .hbm, ⟨8, _⟩ => ⟨S3200000, .i32⟩
  | .hbm, ⟨9, _⟩ => ⟨S3200000, .i32⟩
  | .hbm, ⟨10, _⟩ => ⟨S3200000, .i32⟩
  | .hbm, ⟨11, _⟩ => ⟨S3200000x1, .i32⟩
  | .hbm, ⟨12, _⟩ => ⟨S1, .i32⟩
  | .hbm, ⟨13, _⟩ => ⟨S_, .i32⟩
  | .hbm, ⟨14, _⟩ => ⟨S3200000x1, .i32⟩
  | .hbm, ⟨15, _⟩ => ⟨S3200000x1, .i1⟩
  | .hbm, ⟨16, _⟩ => ⟨S1x1, .i32⟩
  | .hbm, ⟨17, _⟩ => ⟨S3200000x1, .i32⟩
  | .hbm, ⟨18, _⟩ => ⟨S3200000x1, .i1⟩
  | .hbm, ⟨19, _⟩ => ⟨S3200000x1, .i1⟩
  | .hbm, ⟨20, _⟩ => ⟨S_, .i1⟩
  | .hbm, ⟨21, _⟩ => ⟨S3200000, .i1⟩
  | .hbm, ⟨22, _⟩ => ⟨S3x3200000, .f32⟩
  | .hbm, ⟨23, _⟩ => ⟨S3x3200000, .i1⟩
  | .hbm, ⟨24, _⟩ => ⟨S_, .f32⟩
  | .hbm, ⟨25, _⟩ => ⟨S3x3200000, .f32⟩
  | .hbm, ⟨26, _⟩ => ⟨S3x3200000, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S1, .i32⟩
  | .hbm, ⟨36, _⟩ => ⟨S_, .i32⟩
  | .hbm, ⟨37, _⟩ => ⟨S3200000x1, .i32⟩
  | .hbm, ⟨38, _⟩ => ⟨S3200000x1, .i1⟩
  | .hbm, ⟨39, _⟩ => ⟨S1x1, .i32⟩
  | .hbm, ⟨40, _⟩ => ⟨S3200000x1, .i32⟩
  | .hbm, ⟨41, _⟩ => ⟨S3200000x1, .i1⟩
  | .hbm, ⟨42, _⟩ => ⟨S3200000x1, .i1⟩
  | .hbm, ⟨43, _⟩ => ⟨S_, .i1⟩
  | .hbm, ⟨44, _⟩ => ⟨S3200000, .i1⟩
  | .hbm, ⟨45, _⟩ => ⟨S3x3200000, .f32⟩
  | .hbm, ⟨46, _⟩ => ⟨S3x3200000, .i1⟩
  | .hbm, ⟨47, _⟩ => ⟨S_, .f32⟩
  | .hbm, ⟨48, _⟩ => ⟨S3x3200000, .f32⟩
  | .hbm, ⟨49, _⟩ => ⟨S3x3200000, .f32⟩
  | .hbm, ⟨50, _⟩ => ⟨S3x3200000, .f32⟩
  | .hbm, ⟨51, _⟩ => ⟨S9x3200000, .f32⟩
  | .hbm, ⟨52, _⟩ => ⟨S3200000x9, .f32⟩
  | .hbm, ⟨53, _⟩ => ⟨S_, .f32⟩
  | .hbm, ⟨54, _⟩ => ⟨S100000x9, .f32⟩
  | .hbm, ⟨55, _⟩ => ⟨S3200000x1, .i32⟩
  | .hbm, ⟨56, _⟩ => ⟨S100000x9, .f32⟩
  | .hbm, ⟨57, _⟩ => ⟨S100000x1, .f32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000, .f32⟩
  | .hbm, ⟨66, _⟩ => ⟨S100000x8, .f32⟩
  | .hbm, ⟨67, _⟩ => ⟨S100000x1, .f32⟩
  | .hbm, ⟨68, _⟩ => ⟨S100000x8, .f32⟩
  | .hbm, ⟨69, _⟩ => ⟨S100000x8, .f32⟩
  | .hbm, ⟨70, _⟩ => ⟨S100000x1, .f32⟩
  | .hbm, ⟨71, _⟩ => ⟨S100000x9, .f32⟩
  | .local _ .vmem, ⟨0, _⟩ => ⟨S3x80000, .f32⟩
  | .local _ .vmem, ⟨1, _⟩ => ⟨S3x80000, .f32⟩
  | .local _ .vmem, ⟨2, _⟩ => ⟨S9x80000, .f32⟩
  | .local _ .vmem, ⟨3, _⟩ => ⟨S9x80000, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_cst : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_0 : Ref sig .tc := ⟨.hbm, 59, rfl⟩
abbrev main_v11 : Ref sig .tc := ⟨.hbm, 60, rfl⟩
abbrev main_v12 : Ref sig .tc := ⟨.hbm, 61, rfl⟩
abbrev main_cst_1 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S9x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S100000x3_S3x100000_1_0 : S100000x3.Transposes [1, 0] S3x100000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3x3200000_1 : S3200000.BroadcastsInDim S3x3200000 (![1] : Fin 1 → Fin S3x3200000.rank)
  bcast_S_S3x3200000 : S_.BroadcastsInDim S3x3200000 (![] : Fin 0 → Fin S3x3200000.rank)
  inb_S3x80000_S1x80000_0_0 : ∀ a, (![0, 0] : Fin 2 → Nat) a + S1x80000.size a ≤ S3x80000.size a
  h_S1x80000 : 0 < S1x80000.numel
  shapeCasts_S1x80000_S80000 : S1x80000.ShapeCasts S80000
  inb_S3x80000_S1x80000_1_0 : ∀ a, (![1, 0] : Fin 2 → Nat) a + S1x80000.size a ≤ S3x80000.size a
  inb_S3x80000_S1x80000_2_0 : ∀ a, (![2, 0] : Fin 2 → Nat) a + S1x80000.size a ≤ S3x80000.size a
  inb_S9x80000_S1x80000_0_0 : ∀ a, (![0, 0] : Fin 2 → Nat) a + S1x80000.size a ≤ S9x80000.size a
  shapeCasts_S80000_S1x80000 : S80000.ShapeCasts S1x80000
  inb_S9x80000_S1x80000_1_0 : ∀ a, (![1, 0] : Fin 2 → Nat) a + S1x80000.size a ≤ S9x80000.size a
  inb_S9x80000_S1x80000_2_0 : ∀ a, (![2, 0] : Fin 2 → Nat) a + S1x80000.size a ≤ S9x80000.size a
  inb_S9x80000_S1x80000_3_0 : ∀ a, (![3, 0] : Fin 2 → Nat) a + S1x80000.size a ≤ S9x80000.size a
  inb_S9x80000_S1x80000_4_0 : ∀ a, (![4, 0] : Fin 2 → Nat) a + S1x80000.size a ≤ S9x80000.size a
  inb_S9x80000_S1x80000_5_0 : ∀ a, (![5, 0] : Fin 2 → Nat) a + S1x80000.size a ≤ S9x80000.size a
  inb_S9x80000_S1x80000_6_0 : ∀ a, (![6, 0] : Fin 2 → Nat) a + S1x80000.size a ≤ S9x80000.size a
  inb_S9x80000_S1x80000_7_0 : ∀ a, (![7, 0] : Fin 2 → Nat) a + S1x80000.size a ≤ S9x80000.size a
  inb_S9x80000_S1x80000_8_0 : ∀ a, (![8, 0] : Fin 2 → Nat) a + S1x80000.size a ≤ S9x80000.size a
  transposes_S9x3200000_S3200000x9_1_0 : S9x3200000.Transposes [1, 0] S3200000x9
  bcast_S_S100000x9 : S_.BroadcastsInDim S100000x9 (![] : Fin 0 → Fin S100000x9.rank)
  slices_S100000x9_S100000x1_0_8 : S100000x9.Slices ![0, 8] S100000x1
  shapeCasts_S100000x1_S100000 : S100000x1.ShapeCasts S100000
  bcast_S_S100000 : S_.BroadcastsInDim S100000 (![] : Fin 0 → Fin S100000.rank)
  slices_S100000x9_S100000x8_0_0 : S100000x9.Slices ![0, 0] S100000x8
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  concatenates_S100000x1_S100000x8_S100000x9_d1 : Shape.Concatenates [S100000x1, S100000x8] S100000x9 1
  gather_S3x100000_S3200000x1_S3x3200000_0_1_n_n_1_1_31_wf : GatherDims.WF S3x100000 S3200000x1 S3x3200000 [0] [1] [] [1] [] 1 ![3, 1]
  scatter_S100000x9_S3200000x1_S3200000x9_1_0_0_1_wf : ScatterDims.WF S100000x9 S3200000x1 S3200000x9 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x80000.size a ≤ S3x3200000.size a
  hwx0_0 : ∀ i : grid0.Coords, EltTy.bits .f32 = 32 ∨ (Rect.block (s := S3x3200000) S3x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9x80000.size a ≤ S9x3200000.size a
  hwx0_1 : ∀ i : grid0.Coords, EltTy.bits .f32 = 32 ∨ (Rect.block (s := S9x3200000) S9x80000.size (cc0_transform_1 i) (hinb0_1 i)).WholeWords (EltTy.packing .f32)

variable [Facts₀]

def gather_S3x100000_S3200000x1_S3x3200000_0_1_n_n_1_1_31 : GatherDims S3x100000 S3200000x1 S3x3200000 where
  offsetDims := [0]
  collapsedSliceDims := [1]
  operandBatchingDims := []
  startIndicesBatchingDims := []
  startIndexMap := [1]
  indexVectorDim := 1
  sliceSizes := ![3, 1]
  wf := gather_S3x100000_S3200000x1_S3x3200000_0_1_n_n_1_1_31_wf
def scatter_S100000x9_S3200000x1_S3200000x9_1_0_0_1 : ScatterDims S100000x9 S3200000x1 S3200000x9 where
  updateWindowDims := [1]
  insertedWindowDims := [0]
  scatterDimsToOperandDims := [0]
  indexVectorDim := 1
  wf := scatter_S100000x9_S3200000x1_S3200000x9_1_0_0_1_wf

abbrev win0_0 : Pipeline.Window sig grid0 :=
  Pipeline.Window.ofSpec (Memref.whole main_v3) S3x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S9x80000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S100000x3 : Shape := ⟨2, ![100000, 3]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩
abbrev S3200000x9 : Shape := ⟨2, ![3200000, 9]⟩
abbrev S100000x1 : Shape := ⟨2, ![100000, 1]⟩
abbrev S100000x9 : Shape := ⟨2, ![100000, 9]⟩
abbrev S100000 : Shape := ⟨1, ![100000]⟩

abbrev nBuf : Space → Nat
  | .hbm => 119
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S3200000, .i32⟩
  | .hbm, ⟨2, _⟩ => ⟨S3200000, .i32⟩
  | .hbm, ⟨3, _⟩ => ⟨S_, .i32⟩
  | .hbm, ⟨4, _⟩ => ⟨S3200000, .i32⟩
  | .hbm, ⟨5, _⟩ => ⟨S3200000, .i1⟩
  | .hbm, ⟨6, _⟩ => ⟨S_, .i32⟩
  | .hbm, ⟨7, _⟩ => ⟨S3200000, .i32⟩
  | .hbm, ⟨8, _⟩ => ⟨S3200000, .i32⟩
  | .hbm, ⟨9, _⟩ => ⟨S3200000, .i32⟩
  | .hbm, ⟨10, _⟩ => ⟨S3200000x1, .i32⟩
  | .hbm, ⟨11, _⟩ => ⟨S3200000x3, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x3, .f32⟩
  | .hbm, ⟨21, _⟩ => ⟨S3200000x3, .f32⟩
  | .hbm, ⟨22, _⟩ => ⟨S3200000x3, .f32⟩
  | .hbm, ⟨23, _⟩ => ⟨S_, .f32⟩
  | .hbm, ⟨24, _⟩ => ⟨S3200000, .f32⟩
  | .hbm, ⟨25, _⟩ => ⟨S3200000x1, .f32⟩
  | .hbm, ⟨26, _⟩ => ⟨S3200000x1, .f32⟩
  | .hbm, ⟨27, _⟩ => ⟨S_, .f32⟩
  | .hbm, ⟨28, _⟩ => ⟨S3200000x1, .f32⟩
  | .hbm, ⟨29, _⟩ => ⟨S3200000x1, .f32⟩
  | .hbm, ⟨30, _⟩ => ⟨S3200000x3, .f32⟩
  | .hbm, ⟨31, _⟩ => ⟨S3200000x3, .f32⟩
  | .hbm, ⟨32, _⟩ => ⟨S3200000x1, .f32⟩
  | .hbm, ⟨33, _⟩ => ⟨S3200000, .f32⟩
  | .hbm, ⟨34, _⟩ => ⟨S3200000x1, .f32⟩
  | .hbm, ⟨35, _⟩ => ⟨S3200000, .f32⟩
  | .hbm, ⟨36, _⟩ => ⟨S3200000x1, .f32⟩
  | .hbm, ⟨37, _⟩ => ⟨S3200000, .f32⟩
  | .hbm, ⟨38, _⟩ => ⟨S_, .f32⟩
  | .hbm, ⟨39, _⟩ => ⟨S3200000, .f32⟩
  | .hbm, ⟨40, _⟩ => ⟨S_, .f32⟩
  | .hbm, ⟨41, _⟩ => ⟨S3200000, .f32⟩
  | .hbm, ⟨42, _⟩ => ⟨S3200000, .f32⟩
  | .hbm, ⟨43, _⟩ => ⟨S_, .f32⟩
  | .hbm, ⟨44, _⟩ => ⟨S3200000, .f32⟩
  | .hbm, ⟨45, _⟩ => ⟨S3200000, .f32⟩
  | .hbm, ⟨46, _⟩ => ⟨S_, .f32⟩
  | .hbm, ⟨47, _⟩ => ⟨S3200000, .f32⟩
  | .hbm, ⟨48, _⟩ => ⟨S3200000, .f32⟩
  | .hbm, ⟨49, _⟩ => ⟨S_, .f32⟩
  | .hbm, ⟨50, _⟩ => ⟨S3200000, .f32⟩
  | .hbm, ⟨51, _⟩ => ⟨S3200000, .f32⟩
  | .hbm, ⟨52, _⟩ => ⟨S_, .f32⟩
  | .hbm, ⟨53, _⟩ => ⟨S3200000, .f32⟩
  | .hbm, ⟨54, _⟩ => ⟨S3200000, .f32⟩
  | .hbm, ⟨55, _⟩ => ⟨S3200000, .f32⟩
  | .hbm, ⟨56, _⟩ => ⟨S_, .f32⟩
  | .hbm, ⟨57, _⟩ => ⟨S3200000, .f32⟩
  | .hbm, ⟨58, _⟩ => ⟨S3200000, .f32⟩
  | .hbm, ⟨59, _⟩ => ⟨S3200000, .f32⟩
  | .hbm, ⟨60, _⟩ => ⟨S_, .f32⟩
  | .hbm, ⟨61, _⟩ => ⟨S3200000, .f32⟩
  | .hbm, ⟨62, _⟩ => ⟨S3200000, .f32⟩
  | .hbm, ⟨63, _⟩ => ⟨S3200000, .f32⟩
  | .hbm, ⟨64, _⟩ => ⟨S_, .f32⟩
  | .hbm, ⟨65, _⟩ => ⟨S3200000, .f32⟩
  | .hbm, ⟨66, _⟩ => ⟨S3200000, .f32⟩
  | .hbm, ⟨67, _⟩ => ⟨S_, .f32⟩
  | .hbm, ⟨68, _⟩ => ⟨S3200000, .f32⟩
  | .hbm, ⟨69, _⟩ => ⟨S3200000, .f32⟩
  | .hbm, ⟨70, _⟩ => ⟨S_, .f32⟩
  | .hbm, ⟨71, _⟩ => ⟨S3200000, .f32⟩
  | .hbm, ⟨72, _⟩ => ⟨S3200000, .f32⟩
  | .hbm, ⟨73, _⟩ => ⟨S3200000, .f32⟩
  | .hbm, ⟨74, _⟩ => ⟨S3200000, .f32⟩
  | .hbm, ⟨75, _⟩ => ⟨S3200000, .f32⟩
  | .hbm, ⟨76, _⟩ => ⟨S3200000, .f32⟩
  | .hbm, ⟨77, _⟩ => ⟨S_, .f32⟩
  | .hbm, ⟨78, _⟩ => ⟨S3200000, .f32⟩
  | .hbm, ⟨79, _⟩ => ⟨S3200000, .f32⟩
  | .hbm, ⟨80, _⟩ => ⟨S3200000x1, .f32⟩
  | .hbm, ⟨81, _⟩ => ⟨S3200000x1, .f32⟩
  | .hbm, ⟨82, _⟩ => ⟨S3200000x1, .f32⟩
  | .hbm, ⟨83, _⟩ => ⟨S3200000x1, .f32⟩
  | .hbm, ⟨84, _⟩ => ⟨S3200000x1, .f32⟩
  | .hbm, ⟨85, _⟩ => ⟨S3200000x1, .f32⟩
  | .hbm, ⟨86, _⟩ => ⟨S3200000x1, .f32⟩
  | .hbm, ⟨87, _⟩ => ⟨S3200000x1, .f32⟩
  | .hbm, ⟨88, _⟩ => ⟨S3200000x1, .f32⟩
  | .hbm, ⟨89, _⟩ => ⟨S3200000x9, .f32⟩
  | .hbm, ⟨90, _⟩ => ⟨S_, .f32⟩
  | .hbm, ⟨91, _⟩ => ⟨S100000x1, .f32⟩
  | .hbm, ⟨92, _⟩ => ⟨S_, .i32⟩
  | .hbm, ⟨93, _⟩ => ⟨S3200000, .i32⟩
  | .hbm, ⟨94, _⟩ => ⟨S3200000, .i1⟩
  | .hbm, ⟨95, _⟩ => ⟨S_, .i32⟩
  | .hbm, ⟨96, _⟩ => ⟨S3200000, .i32⟩
  | .hbm, ⟨97, _⟩ => ⟨S3200000, .i32⟩
  | .hbm, ⟨98, _⟩ => ⟨S3200000, .i32⟩
  | .hbm, ⟨99, _⟩ => ⟨S3200000x1, .i32⟩
  | .hbm, ⟨100, _⟩ => ⟨S3200000x1, .f32⟩
  | .hbm, ⟨101, _⟩ => ⟨S3200000x9, .f32⟩
  | .hbm, ⟨102, _⟩ => ⟨S3200000x9, .f32⟩
  | .hbm, ⟨103, _⟩ => ⟨S_, .f32⟩
  | .hbm, ⟨104, _⟩ => ⟨S100000x9, .f32⟩
  | .hbm, ⟨105, _⟩ => ⟨S3200000x1, .i32⟩
  | .hbm, ⟨106, _⟩ => ⟨S100000x9, .f32⟩
  | .hbm, ⟨107, _⟩ => ⟨S_, .f32⟩
  | .hbm, ⟨108, _⟩ => ⟨S3200000, .f32⟩
  | .hbm, ⟨109, _⟩ => ⟨S_, .f32⟩
  | .hbm, ⟨110, _⟩ => ⟨S100000, .f32⟩
  | .hbm, ⟨111, _⟩ => ⟨S3200000x1, .i32⟩
  | .hbm, ⟨112, _⟩ => ⟨S100000, .f32⟩
  | .hbm, ⟨113, _⟩ => ⟨S_, .f32⟩
  | .hbm, ⟨114, _⟩ => ⟨S100000, .f32⟩
  | .hbm, ⟨115, _⟩ => ⟨S100000, .f32⟩
  | .hbm, ⟨116, _⟩ => ⟨S100000x1, .f32⟩
  | .hbm, ⟨117, _⟩ => ⟨S100000x9, .f32⟩
  | .hbm, ⟨118, _⟩ => ⟨S100000x9, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_15 : Ref sig .tc := ⟨.hbm, 90, rfl⟩
abbrev main_v66 : Ref sig .tc := ⟨.hbm, 91, rfl⟩
abbrev main_c_16 : Ref sig .tc := ⟨.hbm, 92, rfl⟩
abbrev main_v67 : Ref sig .tc := ⟨.hbm, 93, rfl⟩
abbrev main_v68 : Ref sig .tc := ⟨.hbm, 94, rfl⟩
abbrev main_c_17 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_18 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_19 : Ref sig .tc := ⟨.hbm, 107, rfl⟩
abbrev main_v79 : Ref sig .tc := ⟨.hbm, 108, rfl⟩
abbrev main_cst_20 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_21 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x3_S3200000_d1 : S3200000x3.ReducesTo [1] S3200000
  h_S_ : 0 < S_.numel
  bcast_S_S3200000x1 : S_.BroadcastsInDim S3200000x1 (![] : Fin 0 → Fin S3200000x1.rank)
  bcast_S3200000x1_S3200000x3_0_1 : S3200000x1.BroadcastsInDim S3200000x3 (![0, 1] : Fin 2 → Fin S3200000x3.rank)
  slices_S3200000x3_S3200000x1_0_0 : S3200000x3.Slices ![0, 0] S3200000x1
  shapeCasts_S3200000x1_S3200000 : S3200000x1.ShapeCasts S3200000
  slices_S3200000x3_S3200000x1_0_1 : S3200000x3.Slices ![0, 1] S3200000x1
  slices_S3200000x3_S3200000x1_0_2 : S3200000x3.Slices ![0, 2] S3200000x1
  concatenates_S3200000x1_S3200000x1_S3200000x1_S3200000x1_S3200000x1_S3200000x1_S3200000x1_S3200000x1_S3200000x1_S3200000x9_d1 : Shape.Concatenates [S3200000x1, S3200000x1, S3200000x1, S3200000x1, S3200000x1, S3200000x1, S3200000x1, S3200000x1, S3200000x1] S3200000x9 1
  bcast_S_S100000x1 : S_.BroadcastsInDim S100000x1 (![] : Fin 0 → Fin S100000x1.rank)
  bcast_S3200000x1_S3200000x9_0_1 : S3200000x1.BroadcastsInDim S3200000x9 (![0, 1] : Fin 2 → Fin S3200000x9.rank)
  bcast_S_S100000x9 : S_.BroadcastsInDim S100000x9 (![] : Fin 0 → Fin S100000x9.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x9_0_1 : S100000x1.BroadcastsInDim S100000x9 (![0, 1] : Fin 2 → Fin S100000x9.rank)
  gather_S100000x3_S3200000x1_S3200000x3_1_0_n_n_0_1_13_wf : GatherDims.WF S100000x3 S3200000x1 S3200000x3 [1] [0] [] [0] [] 1 ![1, 3]
  gather_S100000x1_S3200000x1_S3200000x1_1_0_n_n_0_1_11_wf : GatherDims.WF S100000x1 S3200000x1 S3200000x1 [1] [0] [] [0] [] 1 ![1, 1]
  scatter_S100000x9_S3200000x1_S3200000x9_1_0_0_1_wf : ScatterDims.WF S100000x9 S3200000x1 S3200000x9 [1] [0] [0] 1
  scatter_S100000_S3200000x1_S3200000_n_0_0_1_wf : ScatterDims.WF S100000 S3200000x1 S3200000 [] [0] [0] 1

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x9_S3200000x1_S3200000x9_1_0_0_1 : ScatterDims S100000x9 S3200000x1 S3200000x9 where
  updateWindowDims := [1]
  insertedWindowDims := [0]
  scatterDimsToOperandDims := [0]
  indexVectorDim := 1
  wf := scatter_S100000x9_S3200000x1_S3200000x9_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.SrcRange.lean ====
/-
  What the precondition says about the source indices: it is the conjunction of "every position
  is finite" and "every source index `s` satisfies `-100000 ≤ s < 100000`" (signed compares, each
  reduced by `and` over all edges). Only the second conjunct is read here: every source index
  word, read as a signed integer, lies in `[-100000, 100000)`.
-/
import proofs.«421337_j6219112645415_3_alg».proof.Pre_finite_inputs
import Idealize.ShloMosaic.Lib.ReduceAll
import Idealize.ShloMosaic.Lib.Affine
import Idealize.ShloMosaic.Lib.StableHlo.Predicate

noncomputable section

namespace Cert.SrcRange

open Idealize.ShloMosaic Cert.Pre_finite_inputs

variable {F : FTy → Type} [FloatOps F] [Cert.Pre_finite_inputs.Facts]

/-- Under the precondition every source index is in `[-100000, 100000)` as a signed integer. -/
theorem src_range_of_pre (p : FVec F S100000x3 .f32) (s d : IVec S3200000 32)
    (h : Cert.Pre_finite_inputs.fn (F := F) p s d = fun _ => 1#1) (e : S3200000.Idx) :
    -100000 ≤ (s e).toInt ∧ (s e).toInt < 100000 := by
  -- the scalar shape has a single index
  haveI : Subsingleton S_.Idx := ⟨fun a b => funext fun d => d.elim0⟩
  -- read the precondition at that index and expose the outer conjunction
  have h0 := congrFun h (fun a => a.elim0)
  simp only [Cert.Pre_finite_inputs.fn] at h0
  obtain ⟨-, h9⟩ := IntOp.andi_eq_one.1 h0
  -- the second conjunct is an "all" over the edges: it holds at the edge `e`
  have h8 := Host.reduce_andi_all _ _ _ _ _ h9 e
  obtain ⟨hge, hlt⟩ := IntOp.andi_eq_one.1 h8
  -- the two compared vectors are broadcasts of scalar constants: at `e` they are the constants
  have hge' : IntOp.cmpi .sge (s e) (4294867296#32) = 1#1 := hge
  have hlt' : IntOp.cmpi .slt (s e) (100000#32) = 1#1 := hlt
  have h1 := IntOp.cmpi_sge.1 hge'
  have h2 := IntOp.cmpi_slt.1 hlt'
  have c1 : (4294867296#32 : BitVec 32).toInt = -100000 := by decide
  have c2 : (100000#32 : BitVec 32).toInt = 100000 := by decide
  rw [c1] at h1
  rw [c2] at h2
  exact ⟨h1, h2⟩

end Cert.SrcRange

end
-- ==== Proof.EdgeMath.lean ====
/-
  The arithmetic of one edge, on the extended reals.

  From the relative position `(x, y, z)` of an edge both programs form the unit vector
  `u = (x, y, z) / (‖(x, y, z)‖ + ε)` and the eight real spherical harmonics of degree 1 and 2 of `u`.
  One side divides each coordinate by `d = √(x² + y² + z²) + ε`; the other multiplies it by `1 / d`.
  On the extended reals `a / d` is `a · d⁻¹` whenever `d ≠ 0`, and `1 / d` is `1 · d⁻¹`, so the two
  agree as soon as `d ≠ 0` — and `d` is never `0`: a square root is `⊥`, `⊤` or a nonnegative real,
  and `ε` is a positive real. No finiteness of the coordinates is needed.
  The degree-0 harmonic is a constant `c₀`: summed over the edges of a node it is `c₀` times their
  number, because a constant distributes over a sum of nonnegative terms.
-/
import Idealize.ShloMosaic.PureOps.Ideal
import Idealize.ShloMosaic.PureOps.Ideal.Laws

noncomputable section

namespace Cert.Harm

open Idealize.ShloMosaic

/-- The guard `ε` (the binary32 nearest `1e-12`). -/
def eps : EReal := Ideal.ofBits .f32 0x2B8CBCCC#32
/-- The constant `1.0`. -/
def one : EReal := Ideal.ofBits .f32 0x3F800000#32
/-- The normalisations of the harmonics, as the binary32 words both programs carry. -/
def c0 : EReal := Ideal.ofBits .f32 0x3E906EBB#32
def c1 : EReal := Ideal.ofBits .f32 0x3EFA2A1C#32
def c2a : EReal := Ideal.ofBits .f32 0x3F8BD8A1#32
def c2b : EReal := Ideal.ofBits .f32 0x3EA17B01#32
def c2c : EReal := Ideal.ofBits .f32 0x3F0BD8A1#32
def three : EReal := Ideal.ofBits .f32 0x40400000#32

theorem one_eq : one = 1 := by
  unfold one; simp [Ideal.ofBits, Ideal.ieee, -EReal.coe_mul] <;> norm_num

theorem zero_eq : Ideal.ofBits .f32 0x00000000#32 = 0 := Ideal.ofBits_zero_f32

/-- `ε` is a positive real. -/
theorem eps_pos : ∃ r : ℝ, 0 < r ∧ eps = (r : EReal) := by
  refine ⟨(9223372 : ℝ) * (2 : ℝ) ^ (-63 : Int), by positivity, ?_⟩
  unfold eps; simp [Ideal.ofBits, Ideal.ieee, -EReal.coe_mul] <;> norm_num

/-- The squared length, in the order one side adds it. -/
def sq (x y z : EReal) : EReal := x * x + y * y + z * z

/-- The denominator `√s + ε` is never zero. -/
theorem den_ne_zero (s : EReal) : Ideal.sqrt s + eps ≠ 0 := by
  obtain ⟨r, hr, he⟩ := eps_pos
  rw [he]
  induction s using EReal.rec with
  | bot => simp
  | top => simp
  | coe a =>
    rw [Ideal.sqrt_coe]
    split_ifs with h
    · simp
    · have : (0 : ℝ) < Real.sqrt a + r := by positivity
      rw [← EReal.coe_add]
      exact_mod_cast this.ne'

/-- Multiplying by the reciprocal of the denominator is dividing by it. -/
theorem mul_recip (x s : EReal) :
    x * Ideal.div one (Ideal.sqrt s + eps) = Ideal.div x (Ideal.sqrt s + eps) := by
  unfold Ideal.div
  rw [if_neg (den_ne_zero s), if_neg (den_ne_zero s), one_eq, one_mul]

/-- The eight harmonics of degree 1 and 2 of a direction `(a, b, c)`, in the programs' order and grouping. -/
def harm (a b c : EReal) : Fin 8 → EReal
  | ⟨0, _⟩ => c1 * a
  | ⟨1, _⟩ => c1 * b
  | ⟨2, _⟩ => c1 * c
  | ⟨3, _⟩ => c2a * a * b
  | ⟨4, _⟩ => c2a * b * c
  | ⟨5, _⟩ => c2b * (three * c * c - one)
  | ⟨6, _⟩ => c2a * a * c
  | ⟨7, _⟩ => c2c * (a * a - b * b)

/-- A constant times the number of terms is the sum of the constant (the terms counted are nonnegative). -/
theorem mul_sum_one {ι : Type} [DecidableEq ι] (S : Finset ι) (c : EReal) :
    c * ∑ _e ∈ S, (1 : EReal) = ∑ _e ∈ S, c := by
  induction S using Finset.induction_on with
  | empty => simp
  | insert a S ha ih =>
    rw [Finset.sum_insert ha, Finset.sum_insert ha, ← ih]
    have h0 : (0 : EReal) ≤ ∑ _e ∈ S, (1 : EReal) := Finset.sum_nonneg fun _ _ => zero_le_one
    rw [EReal.left_distrib_of_nonneg zero_le_one h0, mul_one]

end Cert.Harm

end
-- ==== Proof.LibGatherRows.lean ====
/-
  A row gather (`x[idx]` along one axis of a rank-2 table) read at an index, in both layouts.

  Table `[N, C]`, start indices `[E, 1]`, result `[E, C]`: result element `(e, k)` is the table's
  `(r, k)`, where `r` is the index word `idx[e, 0]` read as a signed integer and clamped into
  `[0, N - 1]` (a negative number reads as row 0, one past the end as the last row).
  The transposed layout (table `[C, N]`, result `[C, E]`) gathers along axis 1 the same way.
  Beside them: the index wrap `i < 0 ? i + N : i` of a signed 32-bit word in `[-N, N)` lands in `[0, N)`.
-/
import Idealize.ShloMosaic.PureOps
import Idealize.ShloMosaic.Lib.ValueIdx

noncomputable section

namespace Idealize.ShloMosaic.RowGather

open Idealize.ShloMosaic Idealize.ShloMosaic.ValueIdx

variable {α : Type}

/-- Gather of whole rows: table `[N, C]`, indices `[E, 1]`, result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of whole columns: table `[C, N]`, indices `[E, 1]`, result `[C, E]`. -/
abbrev colDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- The row an index word names: read signed, clamped into `[0, N - 1]`. -/
def clampRow (N : Nat) (hN : 0 < N) {w : Nat} (i : BitVec w) : Fin N :=
  ⟨min i.toInt.toNat (N - 1), by omega⟩

/-- THE ROW GATHER READ AT `(e, k)`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 (clampRow N hN (idx (ix2 e (0 : Fin 1)))) k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e k) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show (1 : Fin 2) ∉ (rowDims N C E wf).startIndexMap from (by decide : (1 : Fin 2) ∉ [(0 : Fin 2)]))]
    simp only [Nat.add_zero, Nat.zero_add]
    unfold GatherDims.offCoord
    rw [dif_pos ((GatherDims.mem_sKept _ _).mpr ⟨(by decide : (1 : Fin 2) ∉ [(0 : Fin 2)]), List.not_mem_nil⟩)]
    rfl

/-- THE COLUMN GATHER READ AT `(k, e)`. -/
theorem gather_cols_apply {C N E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (e : Fin E) (k : Fin C) :
    Host.gather (colDims C N E wf) x idx (ix2 k e)
      = x (ix2 k (clampRow N hN (idx (ix2 e (0 : Fin 1))))) := by
  unfold Host.gather
  congr 1
  funext a
  refine Fin.ext ?_
  match a with
  | ⟨0, _⟩ =>
    show (colDims C N E wf).start (ix2 k e) idx 0 + (colDims C N E wf).batchCoord (ix2 k e) 0
      + (colDims C N E wf).offCoord (ix2 k e) 0 = _
    rw [GatherDims.batchCoord_eq_zero _ _ _ List.not_mem_nil]
    unfold GatherDims.start
    rw [dif_neg (show (0 : Fin 2) ∉ (colDims C N E wf).startIndexMap from (by decide : (0 : Fin 2) ∉ [(1 : Fin 2)]))]
    simp only [Nat.add_zero, Nat.zero_add]
    unfold GatherDims.offCoord
    rw [dif_pos ((GatherDims.mem_sKept _ _).mpr ⟨(by decide : (0 : Fin 2) ∉ [(1 : Fin 2)]), List.not_mem_nil⟩)]
    rfl
  | ⟨1, _⟩ =>
    show (colDims C N E wf).start (ix2 k e) idx 1 + (colDims C N E wf).batchCoord (ix2 k e) 1
      + (colDims C N E wf).offCoord (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims C N E wf).startIndexMap from List.mem_singleton.mpr rfl)]
    have hsi : (colDims C N E wf).siIdx (ix2 k e) ⟨List.idxOf (1 : Fin 2) (colDims C N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The wrapped index `i < 0 ? i + 100000 : i` as the programs spell it. -/
def wrap (i : BitVec 32) : BitVec 32 :=
  Scalar.select (IntOp.cmpi .slt i 0#32) (IntOp.addi i 100000#32) i

/-- The three constants read as signed integers. -/
private theorem toInt_zero32 : (0#32 : BitVec 32).toInt = 0 := by decide
private theorem toInt_n32 : (100000#32 : BitVec 32).toInt = 100000 := by decide
private theorem toInt_m32 : (99999#32 : BitVec 32).toInt = 99999 := by decide

/-- On a negative word the wrap adds `100000`. -/
private theorem wrap_of_neg (i : BitVec 32) (h : i.toInt < 0) : wrap i = i + 100000#32 := by
  have hs : i.slt 0#32 = true := by
    rw [BitVec.slt_iff_toInt_lt, toInt_zero32]; exact h
  show (if BitVec.ofBool (i.slt 0#32) = 1 then i + 100000#32 else i) = _
  rw [hs]; rfl

/-- On a non-negative word the wrap is the identity. -/
private theorem wrap_of_nonneg (i : BitVec 32) (h : 0 ≤ i.toInt) : wrap i = i := by
  have hs : i.slt 0#32 = false := by
    rw [BitVec.slt_eq_decide, toInt_zero32]; exact decide_eq_false (by omega)
  show (if BitVec.ofBool (i.slt 0#32) = 1 then i + 100000#32 else i) = _
  rw [hs]; rfl

/-- The wrapped word, read signed, lies in `[0, 99999]`. -/
private theorem wrap_toInt_range (i : BitVec 32) (h1 : -100000 ≤ i.toInt) (h2 : i.toInt < 100000) :
    0 ≤ (wrap i).toInt ∧ (wrap i).toInt ≤ 99999 := by
  by_cases hneg : i.toInt < 0
  · rw [wrap_of_neg i hneg, BitVec.toInt_add, toInt_n32,
      Int.bmod_eq_of_le_mul_two (by omega) (by omega)]
    omega
  · rw [wrap_of_nonneg i (by omega)]; omega

/-- Both range tests hold of a word whose signed reading lies in `[0, 99999]`. -/
private theorem range_tests (v : BitVec 32) (h : 0 ≤ v.toInt ∧ v.toInt ≤ 99999) :
    IntOp.cmpi .sge v 0#32 = 1#1 ∧ IntOp.cmpi .sle v 99999#32 = 1#1 := by
  constructor
  · show BitVec.ofBool ((0#32 : BitVec 32).sle v) = 1#1
    have : (0#32 : BitVec 32).sle v = true := by
      rw [BitVec.sle_iff_toInt_le, toInt_zero32]; exact h.1
    rw [this]; rfl
  · show BitVec.ofBool (v.sle 99999#32) = 1#1
    have : v.sle 99999#32 = true := by
      rw [BitVec.sle_iff_toInt_le, toInt_m32]; exact h.2
    rw [this]; rfl

/-- A word in `[-100000, 100000)` wraps into `[0, 100000)`: both range tests of the wrapped word hold. -/
theorem wrap_inb (i : BitVec 32) (h1 : -100000 ≤ i.toInt) (h2 : i.toInt < 100000) :
    IntOp.cmpi .sge (wrap i) 0#32 = 1#1 ∧ IntOp.cmpi .sle (wrap i) 99999#32 = 1#1 := by
  exact range_tests (wrap i) (wrap_toInt_range i h1 h2)

/-- A word that is a row number `n < 100000` is its own wrap, and in range. -/
theorem wrap_of_row (i : BitVec 32) (n : Nat) (hn : n < 100000) (h : i.toInt = (n : Int)) :
    wrap i = i ∧ IntOp.cmpi .sge (wrap i) 0#32 = 1#1 ∧ IntOp.cmpi .sle (wrap i) 99999#32 = 1#1 := by
  have hw : wrap i = i := wrap_of_nonneg i (by omega)
  refine ⟨hw, ?_⟩
  rw [hw]
  exact range_tests i (by omega)

end Idealize.ShloMosaic.RowGather

end
-- ==== Proof.LibScatterRows.lean ====
/-
  The host's accumulating scatter (a segment sum) read at an index, at the ideal instance.

  Operand `[N, C]`, scatter indices `[E, 1]` (one row number per update row), updates `[E, C]`:
  update row `e` is added, column by column, onto operand row `idx[e, 0]` read as a SIGNED integer,
  and is dropped when that number is not a row of the operand. So element `(n, j)` of the result is
  the operand's plus the sum, over the update rows `e` whose index is `n`, of `upd[e, j]`.
  The flat form (operand `[N]`, updates `[E]`) is the same with no column.
-/
import Idealize.ShloMosaic.PureOps.Ideal
import Idealize.ShloMosaic.Lib.ValueIdx
import Idealize.ShloMosaic.Lib.ValueIdxRank1

noncomputable section

namespace Idealize.ShloMosaic.SegSum

open Idealize.ShloMosaic Idealize.ShloMosaic.ValueIdx

/-- The dimension numbers of a row scatter: operand `[N, C]`, indices `[E, 1]`, updates `[E, C]`;
    the updates' axis 1 is the window, the operand's axis 0 is the scattered one. -/
abbrev rowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a flat scatter: operand `[N]`, indices `[E, 1]`, updates `[E]`. -/
abbrev flatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The update rows that land on operand row `n`: those whose index word, read signed, is `n`. -/
def rowsOf {N E w : Nat} (idx : IVec ⟨2, ![E, 1]⟩ w) (n : Fin N) : Finset (Fin E) :=
  Finset.univ.filter fun e => (idx (ix2 e (0 : Fin 1))).toInt = (n.val : Int)

/-- An update index lands on operand index `i` exactly when, on every axis, its start plus its
    window coordinate is `i`'s coordinate (being inside the operand is then automatic). -/
private theorem resultIdx?_eq_some_iff {s si u : Shape} (d : ScatterDims s si u) {w : Nat}
    (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      intro a
      have hv := congrArg (fun f => (f a).val) (Option.some.inj h)
      simp only at hv
      have := hb a
      omega
    · cases h
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    simp only
    omega

section Rows
variable {N E C w : Nat}
  (wf : ScatterDims.WF ⟨2, ![N, C]⟩ ⟨2, ![E, 1]⟩ ⟨2, ![E, C]⟩ [1] [0] [0] 1)

/-- On the scattered axis the start is the update row's index word, read signed. -/
private theorem rows_start0 (e : Fin E) (j' : Fin C) (idx : IVec ⟨2, ![E, 1]⟩ w) :
    (rowsDims N E C wf).start (ix2 e j') idx 0 = (idx (ix2 e (0 : Fin 1))).toInt := by
  unfold ScatterDims.start
  rw [dif_pos (show (0 : Fin 2) ∈ (rowsDims N E C wf).scatterDimsToOperandDims from List.mem_singleton.mpr rfl)]
  congr 2
  funext b; refine Fin.ext ?_
  match b with
  | ⟨0, _⟩ => rfl
  | ⟨1, _⟩ => rfl

/-- The column axis is not a scattered one: its start is `0`. -/
private theorem rows_start1 (u : (⟨2, ![E, C]⟩ : Shape).Idx) (idx : IVec ⟨2, ![E, 1]⟩ w) :
    (rowsDims N E C wf).start u idx 1 = 0 := by
  unfold ScatterDims.start
  rw [dif_neg (show (1 : Fin 2) ∉ [(0 : Fin 2)] by decide)]

/-- The scattered axis is an inserted one: its window coordinate is `0`. -/
private theorem rows_window0 (u : (⟨2, ![E, C]⟩ : Shape).Idx) :
    (rowsDims N E C wf).window u 0 = 0 := by
  have h : (0 : Fin 2) ∉ (rowsDims N E C wf).sKept := by
    show (0 : Fin 2) ∉ (List.finRange 2).filter (· ∉ [(0 : Fin 2)])
    decide
  unfold ScatterDims.window
  exact dif_neg h

/-- On the column axis the window coordinate is the update's column. -/
private theorem rows_window1 (e : Fin E) (j' : Fin C) :
    (rowsDims N E C wf).window (ix2 e j') 1 = j'.val := by
  have h : (1 : Fin 2) ∈ (rowsDims N E C wf).sKept := by
    show (1 : Fin 2) ∈ (List.finRange 2).filter (· ∉ [(0 : Fin 2)])
    decide
  unfold ScatterDims.window
  rw [dif_pos h]
  rfl

/-- Update element `(e, j')` lands on operand element `(n, j)` exactly when row `e`'s index word,
    read signed, is `n` and the columns agree. -/
private theorem rows_resultIdx_iff (e : Fin E) (j' : Fin C) (idx : IVec ⟨2, ![E, 1]⟩ w)
    (n : Fin N) (j : Fin C) :
    (rowsDims N E C wf).resultIdx? (ix2 e j') idx = some (ix2 n j) ↔
      (idx (ix2 e (0 : Fin 1))).toInt = (n.val : Int) ∧ j' = j := by
  rw [resultIdx?_eq_some_iff]
  constructor
  · intro h
    have h0 : (rowsDims N E C wf).start (ix2 e j') idx 0
        + ((rowsDims N E C wf).window (ix2 e j') 0 : Int) = (n.val : Int) := h 0
    have h1 : (rowsDims N E C wf).start (ix2 e j') idx 1
        + ((rowsDims N E C wf).window (ix2 e j') 1 : Int) = (j.val : Int) := h 1
    rw [rows_start0, rows_window0] at h0
    rw [rows_start1, rows_window1] at h1
    exact ⟨by omega, Fin.ext (by omega)⟩
  · rintro ⟨hn, rfl⟩ a
    match a with
    | ⟨0, _⟩ =>
      show (rowsDims N E C wf).start (ix2 e j') idx 0 + ((rowsDims N E C wf).window (ix2 e j') 0 : Int) = (n.val : Int)
      rw [rows_start0, rows_window0, hn]; simp
    | ⟨1, _⟩ =>
      show (rowsDims N E C wf).start (ix2 e j') idx 1 + ((rowsDims N E C wf).window (ix2 e j') 1 : Int) = (j'.val : Int)
      rw [rows_start1, rows_window1]; simp

end Rows

/-- THE ROW SCATTER READ AT `(n, j)`. -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowsDims N E C wf) x idx upd (ix2 n j)
      = x (ix2 n j) + ∑ e ∈ rowsOf idx n, upd (ix2 e j) := by
  unfold Ideal.hostScatterAdd rowsOf
  congr 1
  rw [Finset.sum_filter, Finset.sum_filter, sum_idx2]
  refine Finset.sum_congr rfl fun e _ => ?_
  simp only [rows_resultIdx_iff]
  by_cases h : (idx (ix2 e (0 : Fin 1))).toInt = (n.val : Int)
  · simp [h]
  · simp [h]

section Flat
variable {N E w : Nat}
  (wf : ScatterDims.WF ⟨1, ![N]⟩ ⟨2, ![E, 1]⟩ ⟨1, ![E]⟩ [] [0] [0] 1)

/-- On the one (scattered) axis the start is the update's index word, read signed. -/
private theorem flat_start0 (e : Fin E) (idx : IVec ⟨2, ![E, 1]⟩ w) :
    (flatDims N E wf).start (ix1 e) idx 0 = (idx (ix2 e (0 : Fin 1))).toInt := by
  unfold ScatterDims.start
  rw [dif_pos (show (0 : Fin 1) ∈ (flatDims N E wf).scatterDimsToOperandDims from List.mem_singleton.mpr rfl)]
  congr 2
  funext b; refine Fin.ext ?_
  match b with
  | ⟨0, _⟩ => rfl
  | ⟨1, _⟩ => rfl

/-- The one axis is an inserted one: its window coordinate is `0`. -/
private theorem flat_window0 (u : (⟨1, ![E]⟩ : Shape).Idx) :
    (flatDims N E wf).window u 0 = 0 := by
  have h : (0 : Fin 1) ∉ (flatDims N E wf).sKept := by
    show (0 : Fin 1) ∉ (List.finRange 1).filter (· ∉ [(0 : Fin 1)])
    decide
  unfold ScatterDims.window
  exact dif_neg h

/-- Update element `e` lands on operand element `n` exactly when its index word, read signed, is `n`. -/
private theorem flat_resultIdx_iff (e : Fin E) (idx : IVec ⟨2, ![E, 1]⟩ w) (n : Fin N) :
    (flatDims N E wf).resultIdx? (ix1 e) idx = some (ix1 n) ↔
      (idx (ix2 e (0 : Fin 1))).toInt = (n.val : Int) := by
  rw [resultIdx?_eq_some_iff]
  constructor
  · intro h
    have h0 : (flatDims N E wf).start (ix1 e) idx 0
        + ((flatDims N E wf).window (ix1 e) 0 : Int) = (n.val : Int) := h 0
    rw [flat_start0, flat_window0] at h0
    omega
  · intro hn a
    match a with
    | ⟨0, _⟩ =>
      show (flatDims N E wf).start (ix1 e) idx 0 + ((flatDims N E wf).window (ix1 e) 0 : Int) = (n.val : Int)
      rw [flat_start0, flat_window0, hn]; simp

end Flat

/-- THE FLAT SCATTER READ AT `n`. -/
theorem hostScatterAdd_flat_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (flatDims N E wf) x idx upd (ix1 n)
      = x (ix1 n) + ∑ e ∈ rowsOf idx n, upd (ix1 e) := by
  unfold Ideal.hostScatterAdd rowsOf
  congr 1
  rw [Finset.sum_filter, Finset.sum_filter, ← Equiv.sum_comp (idxEquiv1 (n := E)).symm]
  refine Finset.sum_congr rfl fun e _ => ?_
  show (if (flatDims N E wf).resultIdx? (ix1 e) idx = some (ix1 n) then upd (ix1 e) else 0) = _
  simp only [flat_resultIdx_iff]

end Idealize.ShloMosaic.SegSum

end
-- ==== Proof.Edges.lean ====
/-
  The common vocabulary of the two programs: edges, their relative positions, their features and the
  per-node averages.

  An edge `e` runs from node `src e` to node `dest e`; its relative position is
  `pos[dest e] - pos[src e]`, where an index word names the node obtained by wrapping a negative word
  by the node count and clamping into range (what a gather reads). The edges that land on node `n`
  are those whose destination word, read as a signed integer, is `n`.
  Each program turns a relative position `(x, y, z)` into nine numbers: the reference into the degree-0
  constant followed by the eight harmonics of `(x, y, z) / d`, each times a gathered `1`; the kernel into
  the eight harmonics of `(x, y, z) · (1 / d)` followed by a `1` that counts the edge.
  Per node both sum these over the landing edges and divide by `max(count, 1)`; the kernel rebuilds the
  degree-0 column as `c₀ · count / max(count, 1)`.
-/
import proofs.«421337_j6219112645415_3_alg».proof.Proof.EdgeMath
import proofs.«421337_j6219112645415_3_alg».proof.Proof.LibGatherRows
import proofs.«421337_j6219112645415_3_alg».proof.Proof.LibScatterRows

noncomputable section

namespace Cert.Edges

open Idealize.ShloMosaic Idealize.ShloMosaic.ValueIdx Idealize.ShloMosaic.RowGather Cert.Harm

abbrev SN3 : Shape := ⟨2, ![100000, 3]⟩
abbrev SE : Shape := ⟨1, ![3200000]⟩
abbrev SN9 : Shape := ⟨2, ![100000, 9]⟩

/-- The `+0.0` both scatters start from. -/
def zero : EReal := Ideal.ofBits .f32 0x00000000#32

/-- The edges that land on node `n`: those whose destination word, read signed, is `n`. -/
def edgesOf (dst : IVec SE 32) (n : Fin 100000) : Finset (Fin 3200000) :=
  Finset.univ.filter fun e => (dst (ix1 e)).toInt = (n.val : Int)

/-- The node an index word names for a gather: wrapped if negative, then clamped into range. -/
def node (i : BitVec 32) : Fin 100000 := clampRow 100000 (by decide) (wrap i)

/-- Coordinate `k` of edge `e`'s relative position. -/
def rel (pos : SN3.Idx → EReal) (src dst : IVec SE 32) (e : Fin 3200000) (k : Fin 3) : EReal :=
  pos (ix2 (node (dst (ix1 e))) k) - pos (ix2 (node (src (ix1 e))) k)

/-- The denominator `‖(x, y, z)‖ + ε`. -/
def den (x y z : EReal) : EReal := Ideal.sqrt (x * x + y * y + z * z) + eps

/-- The reference's nine columns of an edge with relative position `(x, y, z)`. -/
def refFeat (x y z : EReal) : Fin 9 → EReal
  | ⟨0, _⟩ => c0 * one * one
  | ⟨j + 1, h⟩ => harm (Ideal.div x (den x y z)) (Ideal.div y (den x y z)) (Ideal.div z (den x y z)) ⟨j, by omega⟩ * one

/-- The kernel's nine rows of an edge with relative position `(x, y, z)`: eight harmonics, then the counting `1`. -/
def kerFeat (x y z : EReal) (j : Fin 9) : EReal :=
  if h : j.val < 8 then
    harm (x * Ideal.div one (den x y z)) (y * Ideal.div one (den x y z)) (z * Ideal.div one (den x y z)) ⟨j.val, h⟩
  else one

/-- The reference's column `j` of edge `e`. -/
def refEdge (pos : SN3.Idx → EReal) (src dst : IVec SE 32) (e : Fin 3200000) (j : Fin 9) : EReal :=
  refFeat (rel pos src dst e 0) (rel pos src dst e 1) (rel pos src dst e 2) j

/-- The kernel's row `j` of edge `e`. -/
def kerEdge (pos : SN3.Idx → EReal) (src dst : IVec SE 32) (e : Fin 3200000) (j : Fin 9) : EReal :=
  kerFeat (rel pos src dst e 0) (rel pos src dst e 1) (rel pos src dst e 2) j

/-- THE REFERENCE'S RESULT at node `n`, column `j`. -/
def refOut (pos : SN3.Idx → EReal) (src dst : IVec SE 32) (n : Fin 100000) (j : Fin 9) : EReal :=
  Ideal.div (zero + ∑ e ∈ edgesOf dst n, refEdge pos src dst e j)
    (max (zero + ∑ _e ∈ edgesOf dst n, one) one)

/-- The kernel's edge count at node `n` (the sum of its counting row). -/
def kerCnt (pos : SN3.Idx → EReal) (src dst : IVec SE 32) (n : Fin 100000) : EReal :=
  zero + ∑ e ∈ edgesOf dst n, kerEdge pos src dst e 8

/-- THE KERNEL'S RESULT at node `n`, column `j`. -/
def kerOut (pos : SN3.Idx → EReal) (src dst : IVec SE 32) (n : Fin 100000) (j : Fin 9) : EReal :=
  if h : j.val = 0 then Ideal.div (c0 * kerCnt pos src dst n) (max (kerCnt pos src dst n) one)
  else Ideal.div (zero + ∑ e ∈ edgesOf dst n, kerEdge pos src dst e ⟨j.val - 1, by omega⟩)
    (max (kerCnt pos src dst n) one)

end Cert.Edges

end
-- ==== Proof.Bridge.lean ====
/-
  The two per-node results are one number.

  Column by column: the kernel's counting row is `1` on every edge, so its count is the reference's;
  the degree-0 column is `c₀ · count` on one side and the sum of `c₀ · 1 · 1` on the other (a constant
  distributes over a sum of ones); and each harmonic of `(x, y, z) · (1 / d)` is that of `(x, y, z) / d`,
  the gathered `1` the reference multiplies by changing nothing.
-/
import proofs.«421337_j6219112645415_3_alg».proof.Proof.Edges

noncomputable section

namespace Cert.Edges

open Idealize.ShloMosaic Idealize.ShloMosaic.ValueIdx Cert.Harm

/-- The `+0.0` the sums start from is the number `0`. -/
private theorem zero_eq0 : zero = 0 := by
  unfold zero; exact zero_eq

/-- The kernel's counting row is `1` on every edge. -/
private theorem kerEdge_eight (pos : SN3.Idx → EReal) (src dst : IVec SE 32) (e : Fin 3200000) :
    kerEdge pos src dst e 8 = one := by
  unfold kerEdge kerFeat
  rw [dif_neg]
  decide

/-- So the kernel's count is the reference's. -/
private theorem kerCnt_eq (pos : SN3.Idx → EReal) (src dst : IVec SE 32) (n : Fin 100000) :
    kerCnt pos src dst n = zero + ∑ _e ∈ edgesOf dst n, one := by
  unfold kerCnt
  simp only [kerEdge_eight]

/-- The reference's degree-0 column of an edge is `c₀`. -/
private theorem refFeat_zero (x y z : EReal) (h : 0 < 9) : refFeat x y z ⟨0, h⟩ = c0 := by
  show c0 * one * one = c0
  rw [one_eq, mul_one, mul_one]

/-- Each harmonic of `(x, y, z) · (1 / d)` is that of `(x, y, z) / d`, times a `1`. -/
private theorem kerFeat_eq_refFeat_succ (x y z : EReal) (j : Nat) (h : j + 1 < 9) :
    kerFeat x y z ⟨j, by omega⟩ = refFeat x y z ⟨j + 1, h⟩ := by
  have hj : j < 8 := by omega
  show (if h' : j < 8 then
      harm (x * Ideal.div one (den x y z)) (y * Ideal.div one (den x y z)) (z * Ideal.div one (den x y z)) ⟨j, h'⟩
    else one) =
    harm (Ideal.div x (den x y z)) (Ideal.div y (den x y z)) (Ideal.div z (den x y z)) ⟨j, by omega⟩ * one
  rw [dif_pos hj]
  unfold den
  rw [mul_recip, mul_recip, mul_recip, one_eq, mul_one]

/-- The kernel's result at a node and column is the reference's. -/
theorem kerOut_eq_refOut (pos : SN3.Idx → EReal) (src dst : IVec SE 32) (n : Fin 100000) (j : Fin 9) :
    kerOut pos src dst n j = refOut pos src dst n j := by
  obtain ⟨j, hj⟩ := j
  unfold kerOut refOut
  rw [kerCnt_eq]
  rcases j with _ | j
  · -- the degree-0 column: `c₀ · count` against the sum of `c₀ · 1 · 1`
    rw [dif_pos rfl]
    have key : c0 * (zero + ∑ _e ∈ edgesOf dst n, one)
        = zero + ∑ e ∈ edgesOf dst n, refEdge pos src dst e ⟨0, hj⟩ := by
      unfold refEdge
      simp only [refFeat_zero]
      rw [zero_eq0, zero_add, zero_add, one_eq, mul_sum_one]
    rw [key]
  · -- a harmonic column
    rw [dif_neg (by simp)]
    refine congrArg (fun t => Ideal.div (zero + t) (max (zero + ∑ _e ∈ edgesOf dst n, one) one)) ?_
    refine Finset.sum_congr rfl fun e _ => ?_
    unfold kerEdge refEdge
    exact kerFeat_eq_refFeat_succ _ _ _ j hj

end Cert.Edges

end
-- ==== Proof.RefValue.lean ====
/-
  The reference's result, read at a node and a column.

  Its last stage divides the scattered feature sums by the scattered edge counts, floored at one. Read
  at `(n, j)`: the sum over the edges landing on `n` of column `j` of the edge's features — the degree-0
  constant or a harmonic of the normalised relative position, times the gathered `1` — over
  `max(number of those edges, 1)`.
-/
import proofs.«421337_j6219112645415_3_alg».proof.Proof.Gen.ReferenceIdeal.Read
import proofs.«421337_j6219112645415_3_alg».proof.Proof.Edges
import Idealize.ShloMosaic.Lib.Pipeline.Value
import Idealize.ShloMosaic.Lib.ValueIdx
import Idealize.ShloMosaic.PureOps.Ideal.Laws

noncomputable section

namespace Cert.RefSide

open Idealize.ShloMosaic Idealize.ShloMosaic.ValueIdx Cert.ReferenceIdeal Cert.ReferenceIdeal.Gen Cert.ReferenceIdeal.Read Cert.Edges Cert.Harm

section Stages

variable (pos : (⟨S100000x3, .f32⟩ : BufTy).Contents (Elt Ideal))
  (src dst : (⟨S3200000, .i32⟩ : BufTy).Contents (Elt Ideal))

/-- The wrapped destination word of edge `e`. -/
private theorem v4_at (e : Fin 3200000) :
    val_main_v4 (F := Ideal) dst (ix1 e) = RowGather.wrap (dst (ix1 e)) := by
  rw [val_main_v4_apply, val_main_v1_apply, val_main_v3_apply, val_main_v0_apply, val_main_v2_apply,
    val_main_c_apply, val_main_c_0_apply]
  rfl

/-- The wrapped source word of edge `e`. -/
private theorem v11_at (e : Fin 3200000) :
    val_main_v11 (F := Ideal) src (ix1 e) = RowGather.wrap (src (ix1 e)) := by
  rw [val_main_v11_apply, val_main_v8_apply, val_main_v10_apply, val_main_v7_apply, val_main_v9_apply,
    val_main_c_1_apply, val_main_c_2_apply]
  rfl

private theorem v5_at (e : Fin 3200000) :
    val_main_v5 (F := Ideal) dst (ix2 e (0 : Fin 1)) = RowGather.wrap (dst (ix1 e)) := by
  rw [val_main_v5_apply, ← v4_at]
  exact congrArg _ (funext fun a => match a with | ⟨0, _⟩ => rfl)

private theorem v12_at (e : Fin 3200000) :
    val_main_v12 (F := Ideal) src (ix2 e (0 : Fin 1)) = RowGather.wrap (src (ix1 e)) := by
  rw [val_main_v12_apply, ← v11_at]
  exact congrArg _ (funext fun a => match a with | ⟨0, _⟩ => rfl)

/-- The gathered position of the destination node. -/
private theorem v6_at (e : Fin 3200000) (k : Fin 3) :
    val_main_v6 (F := Ideal) pos dst (ix2 e k) = pos (ix2 (node (dst (ix1 e))) k) := by
  have h := RowGather.gather_rows_apply (N := 100000) (C := 3) (E := 3200000) (by decide)
    gather_S100000x3_S3200000x1_S3200000x3_1_0_n_n_0_1_13_wf pos (val_main_v5 (F := Ideal) dst) e k
  rw [v5_at] at h
  exact h

/-- The gathered position of the source node. -/
private theorem v13_at (e : Fin 3200000) (k : Fin 3) :
    val_main_v13 (F := Ideal) pos src (ix2 e k) = pos (ix2 (node (src (ix1 e))) k) := by
  have h := RowGather.gather_rows_apply (N := 100000) (C := 3) (E := 3200000) (by decide)
    gather_S100000x3_S3200000x1_S3200000x3_1_0_n_n_0_1_13_wf pos (val_main_v12 (F := Ideal) src) e k
  rw [v12_at] at h
  exact h

/-- The relative position of edge `e`, coordinate `k`. -/
private theorem v14_at (e : Fin 3200000) (k : Fin 3) :
    val_main_v14 (F := Ideal) pos src dst (ix2 e k) = rel pos src dst e k := by
  rw [val_main_v14_apply, v6_at, v13_at]
  rfl

/-- The squared length of edge `e`'s relative position. -/
private theorem sq_at (e : Fin 3200000) :
    val_main_call0_v1 (F := Ideal) pos src dst (ix1 e)
      = rel pos src dst e 0 * rel pos src dst e 0 + rel pos src dst e 1 * rel pos src dst e 1
        + rel pos src dst e 2 * rel pos src dst e 2 := by
  rw [val_main_call0_v1_apply, Fin.sum_univ_three]
  have hk : ∀ k : Fin 3, val_main_call0_v0 (F := Ideal) pos src dst (idx_main_call0_v1 (ix1 e) k)
      = rel pos src dst e k * rel pos src dst e k := by
    intro k
    have hi : idx_main_call0_v1 (ix1 e) k = ix2 e k := by
      funext a; match a with | ⟨0, _⟩ => rfl | ⟨1, _⟩ => rfl
    rw [hi, val_main_call0_v0_apply, v14_at]
    rfl
  rw [hk 0, hk 1, hk 2, val_main_call0_cst_apply]
  show Ideal.ofBits .f32 0x00000000#32 + _ = _
  rw [zero_eq, zero_add]

/-- The denominator of edge `e`. -/
private theorem v17_at (e : Fin 3200000) :
    val_main_v17 (F := Ideal) pos src dst (ix2 e (0 : Fin 1))
      = den (rel pos src dst e 0) (rel pos src dst e 1) (rel pos src dst e 2) := by
  rw [val_main_v17_apply, val_main_v15_apply, val_main_call0_v2_apply, val_main_v16_apply, val_main_cst_apply]
  have hi : idx_main_call0_v2 (ix2 e (0 : Fin 1)) = ix1 e := by
    funext a; match a with | ⟨0, _⟩ => rfl
  rw [hi, sq_at]
  rfl

/-- The unit coordinate `k` of edge `e`. -/
private theorem v19_at (e : Fin 3200000) (k : Fin 3) :
    val_main_v19 (F := Ideal) pos src dst (ix2 e k)
      = Ideal.div (rel pos src dst e k) (den (rel pos src dst e 0) (rel pos src dst e 1) (rel pos src dst e 2)) := by
  rw [val_main_v19_apply, val_main_v18_apply, v14_at]
  have hi : idx_main_v18 (ix2 e k) = ix2 e (0 : Fin 1) := by
    funext a; match a with | ⟨0, _⟩ => rfl | ⟨1, _⟩ => rfl
  rw [hi, v17_at]
  rfl

/-- The unit vector of edge `e`. -/
private abbrev ux (e : Fin 3200000) : EReal :=
  Ideal.div (rel pos src dst e 0) (den (rel pos src dst e 0) (rel pos src dst e 1) (rel pos src dst e 2))
private abbrev uy (e : Fin 3200000) : EReal :=
  Ideal.div (rel pos src dst e 1) (den (rel pos src dst e 0) (rel pos src dst e 1) (rel pos src dst e 2))
private abbrev uz (e : Fin 3200000) : EReal :=
  Ideal.div (rel pos src dst e 2) (den (rel pos src dst e 0) (rel pos src dst e 1) (rel pos src dst e 2))

private theorem v21_at (e : Fin 3200000) :
    val_main_v21 (F := Ideal) pos src dst (ix1 e) = ux pos src dst e := by
  rw [val_main_v21_apply, val_main_v20_apply]
  have hi : idx_main_v20 (idx_main_v21 (ix1 e)) = ix2 e (0 : Fin 3) := by
    funext a; match a with
    | ⟨0, _⟩ => exact Fin.ext (Nat.div_one _)
    | ⟨1, _⟩ => rfl
  rw [hi, v19_at]

private theorem v23_at (e : Fin 3200000) :
    val_main_v23 (F := Ideal) pos src dst (ix1 e) = uy pos src dst e := by
  rw [val_main_v23_apply, val_main_v22_apply]
  have hi : idx_main_v22 (idx_main_v23 (ix1 e)) = ix2 e (1 : Fin 3) := by
    funext a; match a with
    | ⟨0, _⟩ => exact Fin.ext (Nat.div_one _)
    | ⟨1, _⟩ => rfl
  rw [hi, v19_at]

private theorem v25_at (e : Fin 3200000) :
    val_main_v25 (F := Ideal) pos src dst (ix1 e) = uz pos src dst e := by
  rw [val_main_v25_apply, val_main_v24_apply]
  have hi : idx_main_v24 (idx_main_v25 (ix1 e)) = ix2 e (2 : Fin 3) := by
    funext a; match a with
    | ⟨0, _⟩ => exact Fin.ext (Nat.div_one _)
    | ⟨1, _⟩ => rfl
  rw [hi, v19_at]

/-- The nine feature columns of edge `e` before the gathered `1`: the degree-0 constant, then the harmonics of the unit vector. -/
private def col (e : Fin 3200000) : Fin 9 → EReal
  | ⟨0, _⟩ => c0 * one
  | ⟨j + 1, h⟩ => harm (ux pos src dst e) (uy pos src dst e) (uz pos src dst e) ⟨j, by omega⟩

private theorem v28_at (e : Fin 3200000) : val_main_v28 (F := Ideal) (ix1 e) = c0 * one := by
  rw [val_main_v28_apply, val_main_v27_apply, val_main_v26_apply, val_main_cst_4_apply, val_main_cst_3_apply]
  rfl

private theorem v30_at (e : Fin 3200000) :
    val_main_v30 (F := Ideal) pos src dst (ix1 e) = c1 * ux pos src dst e := by
  rw [val_main_v30_apply, val_main_v29_apply, val_main_cst_5_apply, v21_at]
  rfl

private theorem v32_at (e : Fin 3200000) :
    val_main_v32 (F := Ideal) pos src dst (ix1 e) = c1 * uy pos src dst e := by
  rw [val_main_v32_apply, val_main_v31_apply, val_main_cst_6_apply, v23_at]
  rfl

private theorem v34_at (e : Fin 3200000) :
    val_main_v34 (F := Ideal) pos src dst (ix1 e) = c1 * uz pos src dst e := by
  rw [val_main_v34_apply, val_main_v33_apply, val_main_cst_7_apply, v25_at]
  rfl

private theorem v37_at (e : Fin 3200000) :
    val_main_v37 (F := Ideal) pos src dst (ix1 e) = c2a * ux pos src dst e * uy pos src dst e := by
  rw [val_main_v37_apply, val_main_v36_apply, val_main_v35_apply, val_main_cst_8_apply, v21_at, v23_at]
  rfl

private theorem v40_at (e : Fin 3200000) :
    val_main_v40 (F := Ideal) pos src dst (ix1 e) = c2a * uy pos src dst e * uz pos src dst e := by
  rw [val_main_v40_apply, val_main_v39_apply, val_main_v38_apply, val_main_cst_9_apply, v23_at, v25_at]
  rfl

private theorem v47_at (e : Fin 3200000) :
    val_main_v47 (F := Ideal) pos src dst (ix1 e)
      = c2b * (three * uz pos src dst e * uz pos src dst e - one) := by
  rw [val_main_v47_apply, val_main_v46_apply, val_main_cst_12_apply, val_main_v45_apply, val_main_v43_apply,
    val_main_v42_apply, val_main_v41_apply, val_main_cst_10_apply, val_main_v44_apply, val_main_cst_11_apply, v25_at]
  rfl

private theorem v50_at (e : Fin 3200000) :
    val_main_v50 (F := Ideal) pos src dst (ix1 e) = c2a * ux pos src dst e * uz pos src dst e := by
  rw [val_main_v50_apply, val_main_v49_apply, val_main_v48_apply, val_main_cst_13_apply, v21_at, v25_at]
  rfl

private theorem v55_at (e : Fin 3200000) :
    val_main_v55 (F := Ideal) pos src dst (ix1 e)
      = c2c * (ux pos src dst e * ux pos src dst e - uy pos src dst e * uy pos src dst e) := by
  rw [val_main_v55_apply, val_main_v54_apply, val_main_cst_14_apply, val_main_v53_apply, val_main_v51_apply,
    val_main_v52_apply, v21_at, v23_at]
  rfl

private theorem v56_at (e : Fin 3200000) :
    val_main_v56 (F := Ideal) (ix2 e (0 : Fin 1)) = val_main_v28 (F := Ideal) (ix1 e) := by
  rw [val_main_v56_apply]
  exact congrArg _ (funext fun a => match a with | ⟨0, _⟩ => rfl)

private theorem v57_at (e : Fin 3200000) :
    val_main_v57 (F := Ideal) pos src dst (ix2 e (0 : Fin 1)) = val_main_v30 (F := Ideal) pos src dst (ix1 e) := by
  rw [val_main_v57_apply]
  exact congrArg _ (funext fun a => match a with | ⟨0, _⟩ => rfl)

private theorem v58_at (e : Fin 3200000) :
    val_main_v58 (F := Ideal) pos src dst (ix2 e (0 : Fin 1)) = val_main_v32 (F := Ideal) pos src dst (ix1 e) := by
  rw [val_main_v58_apply]
  exact congrArg _ (funext fun a => match a with | ⟨0, _⟩ => rfl)

private theorem v59_at (e : Fin 3200000) :
    val_main_v59 (F := Ideal) pos src dst (ix2 e (0 : Fin 1)) = val_main_v34 (F := Ideal) pos src dst (ix1 e) := by
  rw [val_main_v59_apply]
  exact congrArg _ (funext fun a => match a with | ⟨0, _⟩ => rfl)

private theorem v60_at (e : Fin 3200000) :
    val_main_v60 (F := Ideal) pos src dst (ix2 e (0 : Fin 1)) = val_main_v37 (F := Ideal) pos src dst (ix1 e) := by
  rw [val_main_v60_apply]
  exact congrArg _ (funext fun a => match a with | ⟨0, _⟩ => rfl)

private theorem v61_at (e : Fin 3200000) :
    val_main_v61 (F := Ideal) pos src dst (ix2 e (0 : Fin 1)) = val_main_v40 (F := Ideal) pos src dst (ix1 e) := by
  rw [val_main_v61_apply]
  exact congrArg _ (funext fun a => match a with | ⟨0, _⟩ => rfl)

private theorem v62_at (e : Fin 3200000) :
    val_main_v62 (F := Ideal) pos src dst (ix2 e (0 : Fin 1)) = val_main_v47 (F := Ideal) pos src dst (ix1 e) := by
  rw [val_main_v62_apply]
  exact congrArg _ (funext fun a => match a with | ⟨0, _⟩ => rfl)

private theorem v63_at (e : Fin 3200000) :
    val_main_v63 (F := Ideal) pos src dst (ix2 e (0 : Fin 1)) = val_main_v50 (F := Ideal) pos src dst (ix1 e) := by
  rw [val_main_v63_apply]
  exact congrArg _ (funext fun a => match a with | ⟨0, _⟩ => rfl)

private theorem v64_at (e : Fin 3200000) :
    val_main_v64 (F := Ideal) pos src dst (ix2 e (0 : Fin 1)) = val_main_v55 (F := Ideal) pos src dst (ix1 e) := by
  rw [val_main_v64_apply]
  exact congrArg _ (funext fun a => match a with | ⟨0, _⟩ => rfl)

/-- Off the joined axis a column's index `(e, 0)` has the coordinates of `(e, j)`. -/
private theorem cat_hi (e : Fin 3200000) (j : Fin 9) :
    ∀ b : Fin S3200000x1.rank, b.cast (rfl : S3200000x1.rank = S3200000x9.rank) ≠ (1 : Fin S3200000x9.rank) →
      ((ix2 e (0 : Fin 1) : S3200000x1.Idx) b).val = ((ix2 e j : S3200000x9.Idx) (b.cast rfl)).val := by
  intro b hb
  match b, hb with
  | ⟨0, _⟩, _ => rfl
  | ⟨1, _⟩, hb => exact absurd rfl hb

/-- The concatenated features of edge `e`, column `j`. -/
private theorem v65_at (e : Fin 3200000) (j : Fin 9) :
    val_main_v65 (F := Ideal) pos src dst (ix2 e j) = col pos src dst e j := by
  unfold val_main_v65
  match j with
  | ⟨0, _⟩ =>
    rw [concatenate_apply_piece (1 : Fin S3200000x9.rank) _ _ (ix2 e ⟨0, _⟩) 0 (by show 0 < 9; omega) S3200000x1 _ rfl rfl 0 rfl
      (ix2 e (0 : Fin 1)) (cat_hi e _) rfl, v56_at, v28_at]
    rfl
  | ⟨1, _⟩ =>
    rw [concatenate_apply_piece (1 : Fin S3200000x9.rank) _ _ (ix2 e ⟨1, _⟩) 1 (by show 1 < 9; omega) S3200000x1 _ rfl rfl 1 rfl
      (ix2 e (0 : Fin 1)) (cat_hi e _) rfl, v57_at, v30_at]
    rfl
  | ⟨2, _⟩ =>
    rw [concatenate_apply_piece (1 : Fin S3200000x9.rank) _ _ (ix2 e ⟨2, _⟩) 2 (by show 2 < 9; omega) S3200000x1 _ rfl rfl 2 rfl
      (ix2 e (0 : Fin 1)) (cat_hi e _) rfl, v58_at, v32_at]
    rfl
  | ⟨3, _⟩ =>
    rw [concatenate_apply_piece (1 : Fin S3200000x9.rank) _ _ (ix2 e ⟨3, _⟩) 3 (by show 3 < 9; omega) S3200000x1 _ rfl rfl 3 rfl
      (ix2 e (0 : Fin 1)) (cat_hi e _) rfl, v59_at, v34_at]
    rfl
  | ⟨4, _⟩ =>
    rw [concatenate_apply_piece (1 : Fin S3200000x9.rank) _ _ (ix2 e ⟨4, _⟩) 4 (by show 4 < 9; omega) S3200000x1 _ rfl rfl 4 rfl
      (ix2 e (0 : Fin 1)) (cat_hi e _) rfl, v60_at, v37_at]
    rfl
  | ⟨5, _⟩ =>
    rw [concatenate_apply_piece (1 : Fin S3200000x9.rank) _ _ (ix2 e ⟨5, _⟩) 5 (by show 5 < 9; omega) S3200000x1 _ rfl rfl 5 rfl
      (ix2 e (0 : Fin 1)) (cat_hi e _) rfl, v61_at, v40_at]
    rfl
  | ⟨6, _⟩ =>
    rw [concatenate_apply_piece (1 : Fin S3200000x9.rank) _ _ (ix2 e ⟨6, _⟩) 6 (by show 6 < 9; omega) S3200000x1 _ rfl rfl 6 rfl
      (ix2 e (0 : Fin 1)) (cat_hi e _) rfl, v62_at, v47_at]
    rfl
  | ⟨7, _⟩ =>
    rw [concatenate_apply_piece (1 : Fin S3200000x9.rank) _ _ (ix2 e ⟨7, _⟩) 7 (by show 7 < 9; omega) S3200000x1 _ rfl rfl 7 rfl
      (ix2 e (0 : Fin 1)) (cat_hi e _) rfl, v63_at, v50_at]
    rfl
  | ⟨8, _⟩ =>
    rw [concatenate_apply_piece (1 : Fin S3200000x9.rank) _ _ (ix2 e ⟨8, _⟩) 8 (by show 8 < 9; omega) S3200000x1 _ rfl rfl 8 rfl
      (ix2 e (0 : Fin 1)) (cat_hi e _) rfl, v64_at, v55_at]
    rfl

/-- The gathered `1`: whatever row of the all-ones table is read, the value is `one`. -/
private theorem v74_at (e : Fin 3200000) (j : Fin 9) :
    val_main_v74 (F := Ideal) dst (ix2 e j) = one := by
  rw [val_main_v74_apply]
  have hi : idx_main_v74 (ix2 e j) = ix2 e (0 : Fin 1) := by
    funext a; match a with | ⟨0, _⟩ => rfl | ⟨1, _⟩ => rfl
  rw [hi]
  have h := RowGather.gather_rows_apply (N := 100000) (C := 1) (E := 3200000) (by decide)
    gather_S100000x1_S3200000x1_S3200000x1_1_0_n_n_0_1_11_wf (val_main_v66 (F := Ideal))
    (val_main_v72 (F := Ideal) dst) e (0 : Fin 1)
  rw [val_main_v66_apply, val_main_cst_15_apply] at h
  exact h

/-- The reference's column `j` of edge `e`. -/
private theorem v75_at (e : Fin 3200000) (j : Fin 9) :
    val_main_v75 (F := Ideal) pos src dst (ix2 e j) = refEdge pos src dst e j := by
  rw [val_main_v75_apply, v65_at, v74_at]
  match j with
  | ⟨0, _⟩ => rfl
  | ⟨j + 1, h⟩ => rfl

/-- The scatter indices are the destination words. -/
private theorem v77_at (e : Fin 3200000) :
    val_main_v77 (F := Ideal) dst (ix2 e (0 : Fin 1)) = dst (ix1 e) := by
  rw [val_main_v77_apply]
  exact congrArg _ (funext fun a => match a with | ⟨0, _⟩ => rfl)

private theorem v81_at (e : Fin 3200000) :
    val_main_v81 (F := Ideal) dst (ix2 e (0 : Fin 1)) = dst (ix1 e) := by
  rw [val_main_v81_apply]
  exact congrArg _ (funext fun a => match a with | ⟨0, _⟩ => rfl)

/-- The update rows landing on node `n` are the edges landing on it. -/
private theorem rows_v77 (n : Fin 100000) :
    SegSum.rowsOf (val_main_v77 (F := Ideal) dst) n = edgesOf dst n := by
  unfold SegSum.rowsOf edgesOf
  refine Finset.filter_congr fun e _ => ?_
  rw [v77_at]

private theorem rows_v81 (n : Fin 100000) :
    SegSum.rowsOf (val_main_v81 (F := Ideal) dst) n = edgesOf dst n := by
  unfold SegSum.rowsOf edgesOf
  refine Finset.filter_congr fun e _ => ?_
  rw [v81_at]

/-- The feature scatter is the ideal segment sum at the row-scatter dimension numbers. -/
private theorem v78_eq :
    val_main_v78 (F := Ideal) pos src dst
      = Ideal.hostScatterAdd
          (SegSum.rowsDims 100000 3200000 9 scatter_S100000x9_S3200000x1_S3200000x9_1_0_0_1_wf)
          (val_main_v76 (F := Ideal)) (val_main_v77 (F := Ideal) dst) (val_main_v75 (F := Ideal) pos src dst) := by
  unfold val_main_v78 Host.scatterAdd
  rw [Ideal.hostScatterAdd_def]
  exact congrArg (fun d => Ideal.hostScatterAdd d (val_main_v76 (F := Ideal)) (val_main_v77 (F := Ideal) dst)
    (val_main_v75 (F := Ideal) pos src dst))
    (rfl : scatter_S100000x9_S3200000x1_S3200000x9_1_0_0_1
      = SegSum.rowsDims 100000 3200000 9 scatter_S100000x9_S3200000x1_S3200000x9_1_0_0_1_wf)

/-- The count scatter is the ideal segment sum at the flat-scatter dimension numbers. -/
private theorem v82_eq :
    val_main_v82 (F := Ideal) dst
      = Ideal.hostScatterAdd
          (SegSum.flatDims 100000 3200000 scatter_S100000_S3200000x1_S3200000_n_0_0_1_wf)
          (val_main_v80 (F := Ideal)) (val_main_v81 (F := Ideal) dst) (val_main_v79 (F := Ideal)) := by
  unfold val_main_v82 Host.scatterAdd
  rw [Ideal.hostScatterAdd_def]
  exact congrArg (fun d => Ideal.hostScatterAdd d (val_main_v80 (F := Ideal)) (val_main_v81 (F := Ideal) dst)
    (val_main_v79 (F := Ideal)))
    (rfl : scatter_S100000_S3200000x1_S3200000_n_0_0_1
      = SegSum.flatDims 100000 3200000 scatter_S100000_S3200000x1_S3200000_n_0_0_1_wf)

/-- The scattered feature sums. -/
private theorem v78_at (n : Fin 100000) (j : Fin 9) :
    val_main_v78 (F := Ideal) pos src dst (ix2 n j)
      = zero + ∑ e ∈ edgesOf dst n, refEdge pos src dst e j := by
  rw [v78_eq, SegSum.hostScatterAdd_rows_apply, rows_v77, val_main_v76_apply, val_main_cst_18_apply,
    Finset.sum_congr rfl (fun e _ => v75_at pos src dst e j)]
  rfl

/-- The scattered edge counts. -/
private theorem v82_at (n : Fin 100000) :
    val_main_v82 (F := Ideal) dst (ix1 n) = zero + ∑ _e ∈ edgesOf dst n, one := by
  have hc : ∀ e : Fin 3200000, val_main_v79 (F := Ideal) (ix1 e) = one := by
    intro e
    rw [val_main_v79_apply, val_main_cst_19_apply]
    rfl
  rw [v82_eq, SegSum.hostScatterAdd_flat_apply, rows_v81, val_main_v80_apply, val_main_cst_20_apply,
    Finset.sum_congr rfl (fun e _ => hc e)]
  rfl

/-- The count floored at one, broadcast along the columns. -/
private theorem v86_at (n : Fin 100000) (j : Fin 9) :
    val_main_v86 (F := Ideal) dst (ix2 n j) = max (zero + ∑ _e ∈ edgesOf dst n, one) one := by
  rw [val_main_v86_apply, val_main_v85_apply, val_main_v84_apply]
  have hi : idx_main_v85 (idx_main_v86 (ix2 n j)) = ix1 n := by
    funext a; match a with | ⟨0, _⟩ => rfl
  rw [hi, v82_at, val_main_v83_apply, val_main_cst_21_apply]
  rfl

end Stages

/-- THE REFERENCE'S RESULT STAGE READ AT `(n, j)`. -/
theorem ref_apply (pos : (⟨S100000x3, .f32⟩ : BufTy).Contents (Elt Ideal))
    (src dst : (⟨S3200000, .i32⟩ : BufTy).Contents (Elt Ideal)) (n : Fin 100000) (j : Fin 9) :
    val_main_v87 (F := Ideal) pos src dst (ix2 n j) = refOut pos src dst n j := by
  rw [val_main_v87_apply, v78_at, v86_at]
  rfl

end Cert.RefSide

end
-- ==== Proof.KernelHostDefs.lean ====
/-
  The kernel program's host operations around its region, as named functions of arrays.

  Before the region: the positions are transposed to `[3, N]`, and for each of the two index arrays the
  columns named by the wrapped indices are gathered — a lane whose wrapped index is outside `[0, N)` is
  filled with the fill word instead — and the two `[3, E]` arrays are subtracted: the relative positions.
  After the region: the `[9, E]` rows are transposed to `[E, 9]`, summed per destination node by a
  scatter-add from zero, the last column (the counts) floored at one, the first eight columns divided by
  it, and the degree-0 column rebuilt as `c₀ · count / max(count, 1)` and put in front.
-/
import proofs.«421337_j6219112645415_3_alg».proof.Proof.Gen.KernelIdeal
import Idealize.ShloMosaic.PureOps.Ideal

noncomputable section

open Idealize.ShloMosaic

namespace Cert.KernelIdeal.Host

open Cert.KernelIdeal Cert.KernelIdeal.Gen

/-- The wrapped indices as a column: `i < 0 ? i + N : i`, broadcast to `[E, 1]`. -/
def idxCol (i : IVec S3200000 32) : IVec S3200000x1 32 :=
  broadcastInDim S3200000x1 ![0] bcast_S3200000_S3200000x1_0
    (select (cmpi .slt i (broadcastInDim S3200000 ![] bcast_S_S3200000 (constantI S_ 32 0#32)))
      (addi i (broadcastInDim S3200000 ![] bcast_S_S3200000 (constantI S_ 32 100000#32))) i)

/-- The guarded column gather: the table's columns at the wrapped indices, the fill word where the wrapped
    index is out of range. -/
def takeK (T : FVec Ideal S3x100000 .f32) (i : IVec S3200000 32) : FVec Ideal S3x3200000 .f32 :=
  select
    (broadcastInDim S3x3200000 ![1] bcast_S3200000_S3x3200000_1
      (Host.reduce IntOp.andi
        (andi (cmpi .sge (idxCol i) (broadcastInDim S3200000x1 ![] bcast_S_S3200000x1 (constantI S_ 32 0#32)))
          (cmpi .sle (idxCol i) (broadcastInDim S3200000x1 ![0, 1] bcast_S1x1_S3200000x1_0_1
            (broadcastInDim S1x1 ![1] bcast_S1_S1x1_1 (constantI S1 32 99999#32)))))
        (constantI S_ 1 1#1) reducesTo_S3200000x1_S3200000_d1 h_S_))
    (Host.gather gather_S3x100000_S3200000x1_S3x3200000_0_1_n_n_1_1_31 T (idxCol i))
    (broadcastInDim S3x3200000 ![] bcast_S_S3x3200000 (constant S_ .f32 0x7FC00000#32))

/-- The relative positions, `[3, E]`, as the program computes them from its three arguments. -/
def relK (pos : FVec Ideal S100000x3 .f32) (src dst : IVec S3200000 32) : FVec Ideal S3x3200000 .f32 :=
  subf (takeK (transpose S3x100000 [1, 0] pos transposes_S100000x3_S3x100000_1_0) dst)
    (takeK (transpose S3x100000 [1, 0] pos transposes_S100000x3_S3x100000_1_0) src)

/-- The per-node sums of the edge rows: the `[E, 9]` transpose scattered by destination onto zeros. -/
def sumsK (Y : FVec Ideal S9x3200000 .f32) (dst : IVec S3200000 32) : FVec Ideal S100000x9 .f32 :=
  Host.scatterAdd scatter_S100000x9_S3200000x1_S3200000x9_1_0_0_1
    (broadcastInDim S100000x9 ![] bcast_S_S100000x9 (constant S_ .f32 0x00000000#32))
    (broadcastInDim S3200000x1 ![0] bcast_S3200000_S3200000x1_0 dst)
    (transpose S3200000x9 [1, 0] Y transposes_S9x3200000_S3200000x9_1_0)

/-- The counts: the last column of the sums, flattened. -/
def cntK (S : FVec Ideal S100000x9 .f32) : FVec Ideal S100000 .f32 :=
  shapeCast S100000 (extractStridedSlice S100000x1 ![0, 8] S slices_S100000x9_S100000x1_0_8) shapeCasts_S100000x1_S100000

/-- The divisor: the counts floored at one. -/
def denK (S : FVec Ideal S100000x9 .f32) : FVec Ideal S100000 .f32 :=
  maximumf (cntK S) (broadcastInDim S100000 ![] bcast_S_S100000 (constant S_ .f32 0x3F800000#32))

/-- The program's result from what the region leaves and the destination indices. -/
def tailK (Y : FVec Ideal S9x3200000 .f32) (dst : IVec S3200000 32) : FVec Ideal S100000x9 .f32 :=
  concatenate S100000x9 1
    [⟨S100000x1, broadcastInDim S100000x1 ![0] bcast_S100000_S100000x1_0
        (Host.divf (mulf (broadcastInDim S100000 ![] bcast_S_S100000 (constant S_ .f32 0x3E906EBB#32)) (cntK (sumsK Y dst)))
          (denK (sumsK Y dst)))⟩,
     ⟨S100000x8, Host.divf (extractStridedSlice S100000x8 ![0, 0] (sumsK Y dst) slices_S100000x9_S100000x8_0_0)
        (broadcastInDim S100000x8 ![0, 1] bcast_S100000x1_S100000x8_0_1
          (broadcastInDim S100000x1 ![0] bcast_S100000_S100000x1_0 (denK (sumsK Y dst))))⟩]
    concatenates_S100000x1_S100000x8_S100000x9_d1

end Cert.KernelIdeal.Host

end
-- ==== Proof.KernelRegion.lean ====
/-
  What the kernel's one region leaves in its output array.

  The region walks the edges in 40 blocks of 80000. At a block it loads the three coordinate rows of the
  relative positions and stores nine rows: the eight harmonics of `(x, y, z) · (1 / (‖(x, y, z)‖ + ε))` and a
  row of ones. Every stored row is a lane-by-lane function of the three loaded rows, so the `[9, 80000]`
  block is ONE function of the `[3, 80000]` input block, read lane by lane; the blocks tile the `[9, E]`
  array along the edge axis, block `t` holding edges `80000 t … 80000 t + 79999` of both arrays. Hence
  the output array ends as that function of the `[3, E]` input array, edge by edge.
-/
import proofs.«421337_j6219112645415_3_alg».proof.Proof.Gen.KernelIdeal.Frame
import proofs.«421337_j6219112645415_3_alg».proof.Proof.Edges
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region

open Cert.KernelIdeal Cert.KernelIdeal.Gen Cert.Edges Cert.Harm Idealize.ShloMosaic.ValueIdx

/-! ## One block: the stored rows as functions of the loaded rows, lane by lane -/

/-- Row `k` of the input block, loaded as a `[1, 80000]` vector and flattened, at lane `l`. -/
theorem row0_apply (x0 : Vec Ideal S3x80000 .f32) (l : Fin 80000) :
    k0_pay1 (F := Ideal) (View.ld x0 r0_0) (ix1 l) = x0 (ix2 (0 : Fin 3) l) := by
  unfold k0_pay1
  refine (shapeCast_apply _ _ (ix1 l) (ix2 (0 : Fin 1) l) ?_).trans ?_
  · rw [Shape.rowMajor_val_two, Shape.rowMajor_val_one]; simp
  · show x0 (r0_0.emb (ix2 (0 : Fin 1) l)) = x0 (ix2 (0 : Fin 3) l)
    refine congrArg x0 (funext fun a => Fin.ext ?_)
    match a with
    | ⟨0, _⟩ => simp [Rect.emb_apply]
    | ⟨1, _⟩ => simp [Rect.emb_apply]

theorem row1_apply (x0 : Vec Ideal S3x80000 .f32) (l : Fin 80000) :
    k0_pay2 (F := Ideal) (View.ld x0 r0_1) (ix1 l) = x0 (ix2 (1 : Fin 3) l) := by
  unfold k0_pay2
  refine (shapeCast_apply _ _ (ix1 l) (ix2 (0 : Fin 1) l) ?_).trans ?_
  · rw [Shape.rowMajor_val_two, Shape.rowMajor_val_one]; simp
  · show x0 (r0_1.emb (ix2 (0 : Fin 1) l)) = x0 (ix2 (1 : Fin 3) l)
    refine congrArg x0 (funext fun a => Fin.ext ?_)
    match a with
    | ⟨0, _⟩ => simp [Rect.emb_apply]
    | ⟨1, _⟩ => simp [Rect.emb_apply]

theorem row2_apply (x0 : Vec Ideal S3x80000 .f32) (l : Fin 80000) :
    k0_pay3 (F := Ideal) (View.ld x0 r0_2) (ix1 l) = x0 (ix2 (2 : Fin 3) l) := by
  unfold k0_pay3
  refine (shapeCast_apply _ _ (ix1 l) (ix2 (0 : Fin 1) l) ?_).trans ?_
  · rw [Shape.rowMajor_val_two, Shape.rowMajor_val_one]; simp
  · show x0 (r0_2.emb (ix2 (0 : Fin 1) l)) = x0 (ix2 (2 : Fin 3) l)
    refine congrArg x0 (funext fun a => Fin.ext ?_)
    match a with
    | ⟨0, _⟩ => simp [Rect.emb_apply]
    | ⟨1, _⟩ => simp [Rect.emb_apply]

/-- The reciprocal of the guarded norm, at lane `l`. -/
theorem inv_apply (x0 : Vec Ideal S3x80000 .f32) (l : Fin 80000) :
    k0_pay4 (F := Ideal) (View.ld x0 r0_0) (View.ld x0 r0_1) (View.ld x0 r0_2) (ix1 l)
      = Ideal.div one (den (x0 (ix2 (0 : Fin 3) l)) (x0 (ix2 (1 : Fin 3) l)) (x0 (ix2 (2 : Fin 3) l))) := by
  show Ideal.div one (Ideal.sqrt
      (k0_pay1 (F := Ideal) (View.ld x0 r0_0) (ix1 l) * k0_pay1 (F := Ideal) (View.ld x0 r0_0) (ix1 l)
        + k0_pay2 (F := Ideal) (View.ld x0 r0_1) (ix1 l) * k0_pay2 (F := Ideal) (View.ld x0 r0_1) (ix1 l)
        + k0_pay3 (F := Ideal) (View.ld x0 r0_2) (ix1 l) * k0_pay3 (F := Ideal) (View.ld x0 r0_2) (ix1 l)) + eps) = _
  rw [row0_apply, row1_apply, row2_apply]
  rfl

/-- The three unit coordinates, at lane `l`: the coordinate times the reciprocal. -/
theorem ux_apply (x0 : Vec Ideal S3x80000 .f32) (l : Fin 80000) :
    k0_pay5 (F := Ideal) (View.ld x0 r0_0) (View.ld x0 r0_1) (View.ld x0 r0_2) (ix1 l)
      = x0 (ix2 (0 : Fin 3) l) * Ideal.div one (den (x0 (ix2 (0 : Fin 3) l)) (x0 (ix2 (1 : Fin 3) l)) (x0 (ix2 (2 : Fin 3) l))) := by
  show k0_pay1 (F := Ideal) (View.ld x0 r0_0) (ix1 l) * k0_pay4 (F := Ideal) (View.ld x0 r0_0) (View.ld x0 r0_1) (View.ld x0 r0_2) (ix1 l) = _
  rw [row0_apply, inv_apply]

theorem uy_apply (x0 : Vec Ideal S3x80000 .f32) (l : Fin 80000) :
    k0_pay6 (F := Ideal) (View.ld x0 r0_0) (View.ld x0 r0_1) (View.ld x0 r0_2) (ix1 l)
      = x0 (ix2 (1 : Fin 3) l) * Ideal.div one (den (x0 (ix2 (0 : Fin 3) l)) (x0 (ix2 (1 : Fin 3) l)) (x0 (ix2 (2 : Fin 3) l))) := by
  show k0_pay2 (F := Ideal) (View.ld x0 r0_1) (ix1 l) * k0_pay4 (F := Ideal) (View.ld x0 r0_0) (View.ld x0 r0_1) (View.ld x0 r0_2) (ix1 l) = _
  rw [row1_apply, inv_apply]

theorem uz_apply (x0 : Vec Ideal S3x80000 .f32) (l : Fin 80000) :
    k0_pay7 (F := Ideal) (View.ld x0 r0_0) (View.ld x0 r0_1) (View.ld x0 r0_2) (ix1 l)
      = x0 (ix2 (2 : Fin 3) l) * Ideal.div one (den (x0 (ix2 (0 : Fin 3) l)) (x0 (ix2 (1 : Fin 3) l)) (x0 (ix2 (2 : Fin 3) l))) := by
  show k0_pay3 (F := Ideal) (View.ld x0 r0_2) (ix1 l) * k0_pay4 (F := Ideal) (View.ld x0 r0_0) (View.ld x0 r0_1) (View.ld x0 r0_2) (ix1 l) = _
  rw [row2_apply, inv_apply]

/-- A flat row stored as a `[1, 80000]` piece reads, at `(0, l)`, the row at `l`. -/
theorem up_apply (v : FVec Ideal S80000 .f32) (l : Fin 80000) :
    shapeCast S1x80000 v shapeCasts_S80000_S1x80000 (ix2 (0 : Fin 1) l) = v (ix1 l) := by
  refine shapeCast_apply _ _ (ix2 (0 : Fin 1) l) (ix1 l) ?_
  rw [Shape.rowMajor_val_two, Shape.rowMajor_val_one]; simp

/-- The `[9, 80000]` block the body leaves, as ONE function of the `[3, 80000]` input block: at row `j`, lane
    `l`, the kernel's row `j` of the relative position in lane `l`. -/
def blkOut (x0 : Vec Ideal S3x80000 .f32) : Vec Ideal S9x80000 .f32 := fun y =>
  kerFeat (x0 (ix2 (0 : Fin 3) ⟨(y 1).val, (y 1).isLt⟩)) (x0 (ix2 (1 : Fin 3) ⟨(y 1).val, (y 1).isLt⟩))
    (x0 (ix2 (2 : Fin 3) ⟨(y 1).val, (y 1).isLt⟩)) ⟨(y 0).val, (y 0).isLt⟩

theorem blkOut_at (x0 : Vec Ideal S3x80000 .f32) (y : S9x80000.Idx) (j : Fin 9) (l : Fin 80000)
    (h0 : (y 0).val = j.val) (h1 : (y 1).val = l.val) :
    blkOut x0 y = kerFeat (x0 (ix2 (0 : Fin 3) l)) (x0 (ix2 (1 : Fin 3) l)) (x0 (ix2 (2 : Fin 3) l)) j := by
  unfold blkOut
  have e1 : (⟨(y 1).val, (y 1).isLt⟩ : Fin 80000) = l := Fin.ext h1
  have e0 : (⟨(y 0).val, (y 0).isLt⟩ : Fin 9) = j := Fin.ext h0
  rw [e1, e0]

/-- What the body leaves in the output block is `blkOut` of the input block: each of the nine stored rows is
    its row of `blkOut`, and the rows tile the block. -/
theorem out0_1_eq (x0 : Vec Ideal S3x80000 .f32) : out0_1 (F := Ideal) x0 = blkOut x0 := by
  funext y
  unfold out0_1
  refine View.canon_apply_of_pieces (Val := Elt Ideal) (blkOut x0) _ ?_ y (cover0_1 _ _ _ _ _ _ _ _ _ y)
  intro p hp
  simp only [List.mem_cons, List.mem_nil_iff, or_false] at hp
  rcases hp with rfl | rfl | rfl | rfl | rfl | rfl | rfl | rfl | rfl
  all_goals
    intro x
    obtain ⟨q, l, rfl⟩ : ∃ (q : Fin 1) (l : Fin 80000), x = ix2 q l := ⟨x 0, x 1, eq_ix2 x⟩
    obtain rfl : q = 0 := Subsingleton.elim _ _
  · rw [blkOut_at x0 _ ⟨8, by decide⟩ l (by simp [Rect.emb_apply]) (by simp [Rect.emb_apply])]
    dsimp only
    unfold k0_pay17; rw [up_apply]; rfl
  · rw [blkOut_at x0 _ ⟨7, by decide⟩ l (by simp [Rect.emb_apply]) (by simp [Rect.emb_apply])]
    dsimp only
    unfold k0_pay16; rw [up_apply]
    show c2c * (k0_pay5 (F := Ideal) _ _ _ (ix1 l) * k0_pay5 (F := Ideal) _ _ _ (ix1 l) - k0_pay6 (F := Ideal) _ _ _ (ix1 l) * k0_pay6 (F := Ideal) _ _ _ (ix1 l)) = _
    rw [ux_apply, uy_apply]; rfl
  · rw [blkOut_at x0 _ ⟨6, by decide⟩ l (by simp [Rect.emb_apply]) (by simp [Rect.emb_apply])]
    dsimp only
    unfold k0_pay15; rw [up_apply]
    show c2a * k0_pay5 (F := Ideal) _ _ _ (ix1 l) * k0_pay7 (F := Ideal) _ _ _ (ix1 l) = _
    rw [ux_apply, uz_apply]; rfl
  · rw [blkOut_at x0 _ ⟨5, by decide⟩ l (by simp [Rect.emb_apply]) (by simp [Rect.emb_apply])]
    dsimp only
    unfold k0_pay14; rw [up_apply]
    show c2b * (three * k0_pay7 (F := Ideal) _ _ _ (ix1 l) * k0_pay7 (F := Ideal) _ _ _ (ix1 l) - one) = _
    rw [uz_apply]; rfl
  · rw [blkOut_at x0 _ ⟨4, by decide⟩ l (by simp [Rect.emb_apply]) (by simp [Rect.emb_apply])]
    dsimp only
    unfold k0_pay13; rw [up_apply]
    show c2a * k0_pay6 (F := Ideal) _ _ _ (ix1 l) * k0_pay7 (F := Ideal) _ _ _ (ix1 l) = _
    rw [uy_apply, uz_apply]; rfl
  · rw [blkOut_at x0 _ ⟨3, by decide⟩ l (by simp [Rect.emb_apply]) (by simp [Rect.emb_apply])]
    dsimp only
    unfold k0_pay12; rw [up_apply]
    show c2a * k0_pay5 (F := Ideal) _ _ _ (ix1 l) * k0_pay6 (F := Ideal) _ _ _ (ix1 l) = _
    rw [ux_apply, uy_apply]; rfl
  · rw [blkOut_at x0 _ ⟨2, by decide⟩ l (by simp [Rect.emb_apply]) (by simp [Rect.emb_apply])]
    dsimp only
    unfold k0_pay10; rw [up_apply]
    show c1 * k0_pay7 (F := Ideal) _ _ _ (ix1 l) = _
    rw [uz_apply]; rfl
  · rw [blkOut_at x0 _ ⟨1, by decide⟩ l (by simp [Rect.emb_apply]) (by simp [Rect.emb_apply])]
    dsimp only
    unfold k0_pay9; rw [up_apply]
    show c1 * k0_pay6 (F := Ideal) _ _ _ (ix1 l) = _
    rw [uy_apply]; rfl
  · rw [blkOut_at x0 _ ⟨0, by decide⟩ l (by simp [Rect.emb_apply]) (by simp [Rect.emb_apply])]
    dsimp only
    unfold k0_pay8; rw [up_apply]
    show c1 * k0_pay5 (F := Ideal) _ _ _ (ix1 l) = _
    rw [ux_apply]; rfl

/-! ## The array: the blocks tile it along the edge axis -/

variable (m : (ℓ : Loc nD τ sig) → Buf (Elt Ideal) ℓ) (ρ : Dev nD → PrngReg)

/-- The `[9, E]` array of edge rows, as a function of the `[3, E]` array of relative positions: at row `j`,
    edge `e`, the kernel's row `j` of edge `e`'s relative position. -/
def shT (X : Vec Ideal S3x3200000 .f32) : Vec Ideal S9x3200000 .f32 := fun i =>
  kerFeat (X (ix2 (0 : Fin 3) ⟨(i 1).val, (i 1).isLt⟩)) (X (ix2 (1 : Fin 3) ⟨(i 1).val, (i 1).isLt⟩))
    (X (ix2 (2 : Fin 3) ⟨(i 1).val, (i 1).isLt⟩)) ⟨(i 0).val, (i 0).isLt⟩

theorem shT_at (X : Vec Ideal S3x3200000 .f32) (j : Fin 9) (e : Fin 3200000) :
    shT X (ix2 j e) = kerFeat (X (ix2 (0 : Fin 3) e)) (X (ix2 (1 : Fin 3) e)) (X (ix2 (2 : Fin 3) e)) j := rfl

/-- The printed index maps, decided over the grid: both windows sit at row-block 0 and at edge-block `t`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- Every edge-block is some point's. -/
theorem idx_onto : ∀ q : Fin 40, ∃ t : Fin cfg0.N, win0_1.index t = ![0, q.val] :=
  (by decide +kernel : ∀ q : Fin 40, ∃ t : Fin grid0.N, win0_1.index t = ![0, q.val])

/-- The input block at point `t` holds edges `80000 t …` of the array of relative positions. -/
theorem iblk_apply (c : Dev nD) (t : Fin cfg0.N) (k : Fin 3) (l : Fin 80000) (e : Fin 3200000)
    (he : e.val = t.val * 80000 + l.val) :
    iblk m c 0 t (ix2 k l) = V m c (Pipeline.arrRef spec0 0) (ix2 k e) := by
  obtain ⟨e0, e1, -, -⟩ := idx_facts t
  have h0 : ((cfg0.win 0).blk t).view.emb (ix2 k l) = ix2 k e := by
    funext a; apply Fin.ext
    match a with
    | ⟨0, _⟩ => show win0_0.index t (0 : Fin 2) * 3 + 1 * k.val = k.val; rw [e0]; omega
    | ⟨1, _⟩ => show win0_0.index t (1 : Fin 2) * 80000 + 1 * l.val = e.val; rw [e1, he]; omega
  unfold iblk
  rw [View.read_apply, h0]
  exact cast_eq _ _

/-- WHAT POINT `t` WRITES BACK is block `t` of `shT` of the array of relative positions. -/
theorem flushed_eq (c : Dev nD) (t : Fin cfg0.N) :
    (dats m 0 c).flushed 1 t
      = ((cfg0.win 1).blk t).view.read (Elt Ideal) (shT (V m c (Pipeline.arrRef spec0 0))) := by
  show (cfg0.win 1).cut (grid0.coords t) ((dats m 0 c).after 1 t) = _
  rw [after0_1, out0_1_eq]
  obtain ⟨-, -, e2, e3⟩ := idx_facts t
  funext y
  have hy0 : (y 0).val < 9 := (y 0).isLt
  have hy1 : (y 1).val < 80000 := (y 1).isLt
  have ht : t.val < 40 := by have h := t.isLt; have hN : cfg0.N = 40 := N_0; omega
  have h1 : ((cfg0.win 1).blk t).view.emb y
      = ix2 (⟨(y 0).val, hy0⟩ : Fin 9) (⟨t.val * 80000 + (y 1).val, by omega⟩ : Fin 3200000) := by
    funext a; apply Fin.ext
    match a with
    | ⟨0, _⟩ => show win0_1.index t (0 : Fin 2) * 9 + 1 * (y 0).val = (y 0).val; rw [e2]; omega
    | ⟨1, _⟩ => show win0_1.index t (1 : Fin 2) * 80000 + 1 * (y 1).val = t.val * 80000 + (y 1).val; rw [e3]; omega
  rw [View.read_apply, h1, cast_eq, shT_at]
  show blkOut (iblk m c 0 t) y = _
  rw [blkOut_at (iblk m c 0 t) y ⟨(y 0).val, hy0⟩ ⟨(y 1).val, hy1⟩ rfl rfl,
    iblk_apply m c t 0 ⟨(y 1).val, hy1⟩ ⟨t.val * 80000 + (y 1).val, by omega⟩ rfl,
    iblk_apply m c t 1 ⟨(y 1).val, hy1⟩ ⟨t.val * 80000 + (y 1).val, by omega⟩ rfl,
    iblk_apply m c t 2 ⟨(y 1).val, hy1⟩ ⟨t.val * 80000 + (y 1).val, by omega⟩ rfl]

/-- An index of the array is in point `t`'s block iff each coordinate is in the block's range on its axis. -/
theorem mem_blk (t : Fin cfg0.N) (i : S9x3200000.Idx) :
    i ∈ ((cfg0.win 1).blk t).view.set ↔ ∀ a : Fin 2, win0_1.index t a * S9x80000.size a ≤ (i a).val
      ∧ (i a).val < win0_1.index t a * S9x80000.size a + S9x80000.size a := by
  show i ∈ ((View.whole main_v4).slice (win0_1.rect t)).set ↔ _
  rw [View.set_slice_whole, Rect.mem_set_unit]
  exact Iff.rfl

/-- Every index of the array is in the block of the point its edge falls in. -/
theorem cover (i : S9x3200000.Idx) :
    ∃ t : Fin cfg0.N, (cfg0.win 1).flush t = true ∧ i ∈ ((cfg0.win 1).blk t).view.set := by
  have hi0 : (i 0).val < 9 := (i 0).isLt
  have hi1 : (i 1).val < 3200000 := (i 1).isLt
  obtain ⟨t, ht⟩ := idx_onto ⟨(i 1).val / 80000, by omega⟩
  have q0 : win0_1.index t (0 : Fin 2) = 0 := congrFun ht 0
  have q1 : win0_1.index t (1 : Fin 2) = (i 1).val / 80000 := congrFun ht 1
  refine ⟨t, flush0_1 t, ?_⟩
  rw [mem_blk]
  intro a
  match a with
  | ⟨0, _⟩ => show win0_1.index t (0 : Fin 2) * 9 ≤ (i 0).val ∧ (i 0).val < win0_1.index t (0 : Fin 2) * 9 + 9; omega
  | ⟨1, _⟩ => show win0_1.index t (1 : Fin 2) * 80000 ≤ (i 1).val ∧ (i 1).val < win0_1.index t (1 : Fin 2) * 80000 + 80000; omega

/-- THE OUTPUT ARRAY after the region: `shT` of the array of relative positions the region found. -/
theorem final (c : Dev nD) : (dats m 0 c).arrAt 1 cfg0.N = shT (V m c (Pipeline.arrRef spec0 0)) :=
  (dats m 0 c).arrAt_eq_of_cover 1 (shT (V m c (Pipeline.arrRef spec0 0))) (fun t _ => flushed_eq m c t) cover

end Cert.KernelIdeal.Region

end
-- ==== Proof.KernelValue.lean ====
/-
  The kernel program's result, read at a node and a column.

  The result is the host tail applied to the region's rows of the relative positions. Read at `(n, j)`: the
  scatter-add from zero is the sum over the edges landing on `n`; the count is the sum of the counting row;
  column 0 is `c₀ · count / max(count, 1)` and column `j ≥ 1` the sum of row `j - 1` over `max(count, 1)`.
  For an edge that lands on a node its destination word is that node's number, so its gather is in range;
  and every source word is in `[-N, N)`, so its wrapped gather is in range too: on those edges the guarded
  gathers read the positions themselves, and the rows are the kernel's rows of the true relative position.
-/
import proofs.«421337_j6219112645415_3_alg».proof.Proof.KernelHostDefs
import proofs.«421337_j6219112645415_3_alg».proof.Proof.KernelRegion
import proofs.«421337_j6219112645415_3_alg».proof.Proof.Edges
import Idealize.ShloMosaic.Lib.Pipeline.Value
import Idealize.ShloMosaic.Lib.ValueIdx
import Idealize.ShloMosaic.PureOps.Ideal.Laws
import Idealize.ShloMosaic.PureOps.Reduce

noncomputable section

namespace Cert.KernelIdeal.Result

open Idealize.ShloMosaic Idealize.ShloMosaic.ValueIdx Cert.KernelIdeal Cert.KernelIdeal.Gen Cert.KernelIdeal.Host
  Cert.KernelIdeal.Region Cert.Edges Cert.Harm

/-- The wrapped index column at row `e` is the wrap of the index word. -/
private theorem idxCol_at (i : IVec S3200000 32) (e : Fin 3200000) :
    idxCol i (ix2 e (0 : Fin 1)) = RowGather.wrap (i (ix1 e)) := by
  unfold idxCol
  refine (broadcastInDim_apply _ _ _ (ix2 e (0 : Fin 1)) (ix1 e) (fun a => ?_)).trans ?_
  · match a with
    | ⟨0, _⟩ => rfl
  · rfl

/-- A left fold by `and` from 1 over words that are all 1 is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-- The reduce by `and` over the unit axis of an `[E, 1]` array, from 1, is 1 at `e` when the array's one word
    of row `e` is 1: the only index that drops to `e` is `(e, 0)`. -/
private theorem mask_at (x : IVec S3200000x1 1) (e : Fin 3200000) (hx : x (ix2 e (0 : Fin 1)) = 1#1) :
    Host.reduce IntOp.andi x (constantI S_ 1 1#1) reducesTo_S3200000x1_S3200000_d1 h_S_ (ix1 e) = 1#1 := by
  rw [Host.reduce_eq_foldl]
  refine foldl_andi_one x _ (fun i hi => ?_)
  rw [List.mem_filter] at hi
  have hd : reducesTo_S3200000x1_S3200000_d1.drop i = ix1 e := of_decide_eq_true hi.2
  have h0 : (i 0).val = e.val := by
    have := Shape.ReducesTo.drop_apply_val_of_eq reducesTo_S3200000x1_S3200000_d1 i 0 0
    rw [hd] at this; exact this.symm
  have hi' : i = ix2 e (0 : Fin 1) := by
    funext a
    match a with
    | ⟨0, _⟩ => exact Fin.ext h0
    | ⟨1, _⟩ => exact Fin.ext (by have := idx2_lt1 i; show (i 1).val = 0; omega)
  rw [hi']; exact hx

/-- The guarded gather at `(k, e)` reads the table's column the index word names, when both range tests of the
    wrapped word hold. -/
private theorem takeK_at (T : FVec Ideal S3x100000 .f32) (i : IVec S3200000 32) (k : Fin 3) (e : Fin 3200000)
    (h1 : IntOp.cmpi .sge (RowGather.wrap (i (ix1 e))) 0#32 = 1#1)
    (h2 : IntOp.cmpi .sle (RowGather.wrap (i (ix1 e))) 99999#32 = 1#1) :
    takeK T i (ix2 k e) = T (ix2 k (node (i (ix1 e)))) := by
  unfold takeK
  rw [select_apply]
  rw [broadcastInDim_apply (![1]) bcast_S3200000_S3x3200000_1 _ (ix2 k e) (ix1 e)
    (fun a => by match a with | ⟨0, _⟩ => rfl)]
  rw [mask_at _ e (by
    show IntOp.andi (IntOp.cmpi .sge (idxCol i (ix2 e (0 : Fin 1))) 0#32)
      (IntOp.cmpi .sle (idxCol i (ix2 e (0 : Fin 1))) 99999#32) = 1#1
    rw [idxCol_at, h1, h2]; rfl)]
  rw [select_one]
  show Host.gather (RowGather.colDims 3 100000 3200000 _) T (idxCol i) (ix2 k e) = _
  rw [RowGather.gather_cols_apply (by decide), idxCol_at]
  rfl

/-- The transposed positions at `(k, r)` are the positions at `(r, k)`. -/
private theorem posT_at (pos : FVec Ideal S100000x3 .f32) (k : Fin 3) (r : Fin 100000) :
    transpose S3x100000 [1, 0] pos transposes_S100000x3_S3x100000_1_0 (ix2 k r) = pos (ix2 r k) := by
  refine transpose_apply _ _ _ (ix2 k r) (ix2 r k) (fun b => ?_)
  match b with
  | ⟨0, _⟩ => rfl
  | ⟨1, _⟩ => rfl

/-- On an edge that lands on a node, the program's relative position is the true one: the destination word is a
    row number, the source word is in `[-N, N)`, so both guarded gathers read the positions. -/
private theorem relK_at (pos : FVec Ideal S100000x3 .f32) (src dst : IVec S3200000 32)
    (hs : ∀ e : Fin 3200000, -100000 ≤ (src (ix1 e)).toInt ∧ (src (ix1 e)).toInt < 100000)
    (n : Fin 100000) (e : Fin 3200000) (he : e ∈ edgesOf dst n) (k : Fin 3) :
    relK pos src dst (ix2 k e) = rel pos src dst e k := by
  have hd : (dst (ix1 e)).toInt = (n.val : Int) := (Finset.mem_filter.1 he).2
  obtain ⟨_, d1, d2⟩ := RowGather.wrap_of_row (dst (ix1 e)) n.val n.isLt hd
  obtain ⟨s1, s2⟩ := RowGather.wrap_inb (src (ix1 e)) (hs e).1 (hs e).2
  unfold relK
  rw [subf_apply, takeK_at _ _ _ _ d1 d2, takeK_at _ _ _ _ s1 s2, posT_at, posT_at]
  rfl

/-- The update rows landing on `n` are the edges landing on `n`: the index column at `(e, 0)` is the destination word. -/
private theorem rows_eq (dst : IVec S3200000 32) (n : Fin 100000) :
    SegSum.rowsOf (N := 100000) (broadcastInDim S3200000x1 ![0] bcast_S3200000_S3200000x1_0 dst) n
      = edgesOf dst n := by
  unfold SegSum.rowsOf edgesOf
  refine Finset.filter_congr (fun e _ => ?_)
  rw [broadcastInDim_apply _ _ _ (ix2 e (0 : Fin 1)) (ix1 e) (fun a => by match a with | ⟨0, _⟩ => rfl)]

/-- The transposed edge rows at `(e, j)` are the rows at `(j, e)`. -/
private theorem updT_at (Y : FVec Ideal S9x3200000 .f32) (j : Fin 9) (e : Fin 3200000) :
    transpose S3200000x9 [1, 0] Y transposes_S9x3200000_S3200000x9_1_0 (ix2 e j) = Y (ix2 j e) :=
  transpose_apply _ _ _ (ix2 e j) (ix2 j e) (fun b => by match b with | ⟨0, _⟩ => rfl | ⟨1, _⟩ => rfl)

/-- The scatter's operand is `+0.0` everywhere. -/
private theorem zeros_at (n : Fin 100000) (j : Fin 9) :
    broadcastInDim S100000x9 ![] bcast_S_S100000x9 (constant (F := Ideal) S_ .f32 0x00000000#32) (ix2 n j)
      = zero := rfl

/-- The program's scatter dimension numbers are those of a row scatter. -/
private theorem scatter_dims_eq : scatter_S100000x9_S3200000x1_S3200000x9_1_0_0_1
    = SegSum.rowsDims 100000 3200000 9 scatter_S100000x9_S3200000x1_S3200000x9_1_0_0_1_wf := rfl

/-- At the ideal instance the host's accumulating scatter is the exact sum. -/
private theorem scatter_ideal (x : FVec Ideal S100000x9 .f32) (idx : IVec S3200000x1 32) (upd : FVec Ideal S3200000x9 .f32) :
    Host.scatterAdd scatter_S100000x9_S3200000x1_S3200000x9_1_0_0_1 x idx upd
      = Ideal.hostScatterAdd scatter_S100000x9_S3200000x1_S3200000x9_1_0_0_1 x idx upd := by
  unfold Host.scatterAdd
  exact Ideal.hostScatterAdd_def _ _ _ _ _

/-- The program's scatter-add read at `(n, j)`: the operand's element plus the sum of column `j` of the update rows
    whose index word, read signed, is `n`. -/
private theorem scatter_at (x : FVec Ideal S100000x9 .f32) (idx : IVec S3200000x1 32) (upd : FVec Ideal S3200000x9 .f32)
    (n : Fin 100000) (j : Fin 9) :
    Host.scatterAdd scatter_S100000x9_S3200000x1_S3200000x9_1_0_0_1 x idx upd (ix2 n j)
      = x (ix2 n j) + ∑ e ∈ SegSum.rowsOf idx n, upd (ix2 e j) := by
  rw [scatter_ideal, scatter_dims_eq]
  exact SegSum.hostScatterAdd_rows_apply _ x idx upd n j

/-- The per-node sums at `(n, j)`: zero plus the sum of row `j` over the edges landing on `n`. -/
private theorem sumsK_at (Y : FVec Ideal S9x3200000 .f32) (dst : IVec S3200000 32) (n : Fin 100000) (j : Fin 9) :
    sumsK Y dst (ix2 n j) = zero + ∑ e ∈ edgesOf dst n, Y (ix2 j e) := by
  unfold sumsK
  rw [scatter_at, rows_eq, zeros_at]
  rw [Finset.sum_congr rfl fun e _ => updT_at Y j e]

/-- The host's quotient at an index is the ideal division of the elements. -/
private theorem hdivf_at {s : Shape} (a b : FVec Ideal s .f32) (i : s.Idx) :
    Host.divf a b i = Ideal.div (a i) (b i) := rfl

/-- The count at `n` is the sums' last column at row `n`. -/
private theorem cntK_at (S : FVec Ideal S100000x9 .f32) (n : Fin 100000) :
    cntK S (ix1 n) = S (ix2 n (8 : Fin 9)) := by
  unfold cntK
  refine (shapeCast_apply _ _ (ix1 n) (ix2 n (0 : Fin 1)) ?_).trans ?_
  · rw [Shape.rowMajor_val_two, Shape.rowMajor_val_one]
    show n.val * 1 + 0 = n.val
    omega
  · exact extractStridedSlice_apply _ _ _ (ix2 n (0 : Fin 1)) (ix2 n (8 : Fin 9)) (fun a => by
      match a with
      | ⟨0, _⟩ => show n.val = 0 + n.val; omega
      | ⟨1, _⟩ => rfl)

/-- The divisor at `n` is the count floored at one. -/
private theorem denK_at (S : FVec Ideal S100000x9 .f32) (n : Fin 100000) :
    denK S (ix1 n) = max (S (ix2 n (8 : Fin 9))) one := by
  unfold denK
  rw [maximumf_apply, cntK_at]
  rfl

/-- The result's column 0 at row `n`: `c₀ · count / max(count, 1)`. -/
private theorem tailK_zero (Y : FVec Ideal S9x3200000 .f32) (dst : IVec S3200000 32) (n : Fin 100000) :
    tailK Y dst (ix2 n (0 : Fin 9))
      = Ideal.div (c0 * sumsK Y dst (ix2 n (8 : Fin 9))) (max (sumsK Y dst (ix2 n (8 : Fin 9))) one) := by
  unfold tailK
  refine (concatenate_pair_apply_left _ _ _ concatenates_S100000x1_S100000x8_S100000x9_d1 (ix2 n (0 : Fin 9)) rfl
    (ix2 n (0 : Fin 1)) (fun b => by match b with | ⟨0, _⟩ => rfl | ⟨1, _⟩ => rfl)).trans ?_
  rw [broadcastInDim_apply (![0]) bcast_S100000_S100000x1_0 _ (ix2 n (0 : Fin 1)) (ix1 n)
    (fun a => by match a with | ⟨0, _⟩ => rfl)]
  rw [hdivf_at, mulf_apply, cntK_at, denK_at]
  rfl

/-- The result's column `j + 1` at row `n`: the sums' column `j` over `max(count, 1)`. -/
private theorem tailK_succ (Y : FVec Ideal S9x3200000 .f32) (dst : IVec S3200000 32) (n : Fin 100000) (j : Fin 8) :
    tailK Y dst (ix2 n (⟨j.val + 1, by omega⟩ : Fin 9))
      = Ideal.div (sumsK Y dst (ix2 n (⟨j.val, by omega⟩ : Fin 9))) (max (sumsK Y dst (ix2 n (8 : Fin 9))) one) := by
  unfold tailK
  refine (concatenate_pair_apply_right _ _ _ concatenates_S100000x1_S100000x8_S100000x9_d1
    (ix2 n (⟨j.val + 1, by omega⟩ : Fin 9)) rfl rfl (ix2 n j) (fun b hb => ?_) ?_).trans ?_
  · match b with
    | ⟨0, _⟩ => rfl
    | ⟨1, _⟩ => exact absurd rfl hb
  · rfl
  · rw [hdivf_at]
    rw [extractStridedSlice_apply (![0, 0]) _ slices_S100000x9_S100000x8_0_0 (ix2 n j)
      (ix2 n (⟨j.val, by omega⟩ : Fin 9)) (fun a => by
        match a with
        | ⟨0, _⟩ => show n.val = 0 + n.val; omega
        | ⟨1, _⟩ => show j.val = 0 + j.val; omega)]
    rw [broadcastInDim_apply (![0, 1]) bcast_S100000x1_S100000x8_0_1 _ (ix2 n j) (ix2 n (0 : Fin 1))
      (fun a => by match a with | ⟨0, _⟩ => rfl | ⟨1, _⟩ => rfl)]
    rw [broadcastInDim_apply (![0]) bcast_S100000_S100000x1_0 _ (ix2 n (0 : Fin 1)) (ix1 n)
      (fun a => by match a with | ⟨0, _⟩ => rfl)]
    rw [denK_at]

/-- The per-node sums of the region's rows of the program's relative positions are the sums of the kernel's rows of
    the true relative positions: every edge in the sum lands on `n`. -/
private theorem sums_shT (pos : FVec Ideal S100000x3 .f32) (src dst : IVec S3200000 32)
    (hs : ∀ e : Fin 3200000, -100000 ≤ (src (ix1 e)).toInt ∧ (src (ix1 e)).toInt < 100000)
    (n : Fin 100000) (j : Fin 9) :
    sumsK (shT (relK pos src dst)) dst (ix2 n j) = zero + ∑ e ∈ edgesOf dst n, kerEdge pos src dst e j := by
  have h : ∀ e ∈ edgesOf dst n, shT (relK pos src dst) (ix2 j e) = kerEdge pos src dst e j := fun e he => by
    rw [shT_at, relK_at pos src dst hs n e he 0, relK_at pos src dst hs n e he 1, relK_at pos src dst hs n e he 2]
    rfl
  rw [sumsK_at, Finset.sum_congr rfl h]

/-- THE KERNEL PROGRAM'S RESULT READ AT `(n, j)`, when every source index is in `[-N, N)`. -/
theorem ker_apply (pos : FVec Ideal S100000x3 .f32) (src dst : IVec S3200000 32)
    (hs : ∀ e : Fin 3200000, -100000 ≤ (src (ix1 e)).toInt ∧ (src (ix1 e)).toInt < 100000)
    (n : Fin 100000) (j : Fin 9) :
    tailK (shT (relK pos src dst)) dst (ix2 n j) = kerOut pos src dst n j := by
  by_cases h : j.val = 0
  · obtain rfl : j = (0 : Fin 9) := Fin.ext h
    rw [tailK_zero, sums_shT pos src dst hs n 8]
    unfold kerOut kerCnt
    rw [dif_pos h]
  · obtain ⟨j', rfl⟩ : ∃ j' : Fin 8, j = (⟨j'.val + 1, by omega⟩ : Fin 9) :=
      ⟨⟨j.val - 1, by omega⟩, Fin.ext (by show j.val = j.val - 1 + 1; omega)⟩
    rw [tailK_succ, sums_shT pos src dst hs n ⟨j'.val, by omega⟩, sums_shT pos src dst hs n 8]
    unfold kerOut kerCnt
    rw [dif_neg h]
    rfl

end Cert.KernelIdeal.Result

end
-- ==== Proof.KernelHost.lean ====
/-
  The kernel program's run around its region, read.

  The region finds, in its input array, the relative positions as the host operations before it compute
  them from the three arguments; and the program's result buffer ends as the host operations after the
  region compute it from what the region leaves in its output array and from the destination indices.
-/
import proofs.«421337_j6219112645415_3_alg».proof.Proof.Gen.KernelIdeal.Frame
import proofs.«421337_j6219112645415_3_alg».proof.Proof.KernelHostDefs
import Idealize.ShloMosaic.Lib.StableHlo.Run
import Idealize.ShloMosaic.PureOps.Ideal
import Idealize.ShloMosaic.Lib.Pipeline.FrameSuffix

set_option maxRecDepth 16384

noncomputable section

open Idealize.ShloMosaic Idealize.ShloMosaic.TcCoe Idealize.SL.Sem Idealize.ShloMosaic.StableHlo
open Idealize.ShloMosaic.Pipeline (Dat)

namespace Cert.KernelIdeal.Host

open Cert.KernelIdeal Cert.KernelIdeal.Gen

/-! ## The host operations before the region, one stretch at a time

The operations before the region come in four stretches: the transpose, the two guarded gathers (each the
23 operations of one call of the gather function, whose lines carry each value to its buffer's own type and
back), and the subtraction. Each stretch is read over an arbitrary starting valuation: what it writes as a
function of what it reads, and what it leaves alone. -/

/-- Contents carried to a buffer's own type and back are unchanged. -/
theorem ofBuf_toBuf {T : BufTy} (x : StableHlo.TRef sig T) (v : T.Contents (Elt Ideal)) : x.ofBuf (x.toBuf v) = v := by
  obtain ⟨r, h, _, _⟩ := x
  subst h
  rfl

/-- Running two stretches one after the other is running their concatenation. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => simp only [List.cons_append, StableHlo.after_cons, ih]

/-- A buffer none of a stretch's operations writes keeps its contents. -/
local macro "unwritten" : tactic =>
  `(tactic| (refine StableHlo.after_of_forall_not_mem _ _ (List.forall_iff_forall_mem.mp ?_)
             simp only [hostOps0, hostOps0_1, hostOps0_2, hostOps0_3, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-- The first stretch writes the transposed positions. -/
theorem stretch0_v0 (W : Valuation τ sig (Elt Ideal)) :
    StableHlo.after hostOps0 W (Proc.devRef .tc main_v0)
      = transpose S3x100000 [1, 0] (W (Proc.devRef .tc main_arg0)) transposes_S100000x3_S3x100000_1_0 := by
  simp only [hostOps0]
  after_results
  try rfl
theorem stretch0_arg1 (W : Valuation τ sig (Elt Ideal)) :
    StableHlo.after hostOps0 W (Proc.devRef .tc main_arg1) = W (Proc.devRef .tc main_arg1) := by unwritten
theorem stretch0_arg2 (W : Valuation τ sig (Elt Ideal)) :
    StableHlo.after hostOps0 W (Proc.devRef .tc main_arg2) = W (Proc.devRef .tc main_arg2) := by unwritten

set_option maxHeartbeats 16000000 in
/-- The second stretch writes the guarded gather at the destination indices. -/
theorem stretch1_v1 (W : Valuation τ sig (Elt Ideal)) :
    StableHlo.after hostOps0_1 W (Proc.devRef .tc main_v1)
      = takeK (W (Proc.devRef .tc main_v0)) (W (Proc.devRef .tc main_arg2)) := by
  simp only [hostOps0_1]
  after_results
  simp only [ofBuf_toBuf]
  simp only [StableHlo.TRef.toBuf, StableHlo.TRef.ofBuf, cast_eq]
  rfl
theorem stretch1_v0 (W : Valuation τ sig (Elt Ideal)) :
    StableHlo.after hostOps0_1 W (Proc.devRef .tc main_v0) = W (Proc.devRef .tc main_v0) := by unwritten
theorem stretch1_arg1 (W : Valuation τ sig (Elt Ideal)) :
    StableHlo.after hostOps0_1 W (Proc.devRef .tc main_arg1) = W (Proc.devRef .tc main_arg1) := by unwritten

set_option maxHeartbeats 16000000 in
/-- The third stretch writes the guarded gather at the source indices. -/
theorem stretch2_v2 (W : Valuation τ sig (Elt Ideal)) :
    StableHlo.after hostOps0_2 W (Proc.devRef .tc main_v2)
      = takeK (W (Proc.devRef .tc main_v0)) (W (Proc.devRef .tc main_arg1)) := by
  simp only [hostOps0_2]
  after_results
  simp only [ofBuf_toBuf]
  simp only [StableHlo.TRef.toBuf, StableHlo.TRef.ofBuf, cast_eq]
  rfl
theorem stretch2_v1 (W : Valuation τ sig (Elt Ideal)) :
    StableHlo.after hostOps0_2 W (Proc.devRef .tc main_v1) = W (Proc.devRef .tc main_v1) := by unwritten

/-- The last stretch subtracts the two gathers. -/
theorem stretch3_v3 (W : Valuation τ sig (Elt Ideal)) :
    @Eq (FVec Ideal S3x3200000 .f32) (StableHlo.after hostOps0_3 W (Proc.devRef .tc main_v3))
      (subf (W (Proc.devRef .tc main_v1)) (W (Proc.devRef .tc main_v2))) := by
  simp only [hostOps0_3]
  after_results
  try rfl

variable (m : (ℓ : Loc nD τ sig) → Buf (Elt Ideal) ℓ) (ρ : Dev nD → PrngReg)

/-- The region finds the relative positions in its input array. -/
theorem V_rel (c : Dev nD) :
    (V m c main_v3 : FVec Ideal S3x3200000 .f32)
      = relK (m ((c : Thread nD τ).loc main_arg0)) (m ((c : Thread nD τ).loc main_arg1)) (m ((c : Thread nD τ).loc main_arg2)) := by
  dsimp only [V, V0]
  simp only [List.flatten_cons, List.flatten_nil, List.append_nil]
  rw [after_append, after_append, after_append]
  rw [stretch3_v3, stretch2_v2, stretch2_v1, stretch1_v1, stretch1_v0, stretch1_arg1, stretch0_v0, stretch0_arg1, stretch0_arg2]
  rfl

set_option maxHeartbeats 8000000 in
/-- The program's result buffer after the tail: `tailK` of the region's output array and the destinations. -/
theorem tail_result (c : Dev nD) :
    Pipeline.afterTail₀ cfgs (dats m) 0 (V0 m) [hostOps1] c main_v21
      = tailK ((dats m 0 c).arrAt 1 cfg0.N) (m ((c : Thread nD τ).loc main_arg2)) := by
  unfold Pipeline.afterTail₀
  show StableHlo.after hostOps1 _ (Proc.devRef .tc main_v21) = _
  after_results
  rw [Pipeline.withArrays_arr spec0 launch0.win.arr_inj c _ _ 1,
    Pipeline.withArrays_of_ne _ c (V0 m c) _ main_arg2 (by exact (by decide : ∀ w, Pipeline.arrRef spec0 w ≠ main_arg2))]
  rw [show V0 m c (Proc.devRef .tc main_arg2) = m ((c : Thread nD τ).loc main_arg2) from V_main_arg2 m c]
  rfl

end Cert.KernelIdeal.Host

end
-- ==== Proof.KernelRun.lean ====
/-
  The kernel program's run, read: its result as one function of its three arguments.

  The frame run leaves the output array of the region at the rows of the array the region found, which
  the host operations before it made the relative positions of the arguments; the host operations after
  the region then leave the result buffer at their function of those rows and of the destinations; and
  the three arguments end unchanged.
-/
import proofs.«421337_j6219112645415_3_alg».proof.Proof.KernelRegion
import proofs.«421337_j6219112645415_3_alg».proof.Proof.KernelHost

noncomputable section

open Idealize.ShloMosaic Idealize.ShloMosaic.TcCoe Idealize.SL.Sem

namespace Cert.KernelIdeal.RunRead

open Cert.KernelIdeal Cert.KernelIdeal.Gen Cert.KernelIdeal.Host Cert.KernelIdeal.Region

variable (m : (ℓ : Loc nD τ sig) → Buf (Elt Ideal) ℓ) (ρ : Dev nD → PrngReg)

/-- The region's input array, under either name of its buffer. -/
theorem V_arr0 (c : Dev nD) : V m c (Pipeline.arrRef spec0 0) = V m c main_v3 := rfl

/-- The program's result as a function of its arguments. -/
def result (c : Dev nD) : FVec Ideal S100000x9 .f32 :=
  tailK (shT (relK (m ((c : Thread nD τ).loc main_arg0)) (m ((c : Thread nD τ).loc main_arg1))
    (m ((c : Thread nD τ).loc main_arg2)))) (m ((c : Thread nD τ).loc main_arg2))

/-- The tail's result buffer is `result`. -/
theorem tail_eq (c : Dev nD) :
    Pipeline.afterTail₀ cfgs (dats m) 0 (V0 m) [hostOps1] c main_v21 = result m c := by
  rw [tail_result m c, final m c, V_arr0 m c, V_rel m c]
  rfl

/-- Every weakly fair execution of the kernel program terminates with its result buffer at `result` and its
    arguments unchanged. -/
theorem run : θ_run defs (onTc (τ := τ) (main (F := Ideal))) ⟨m, fun _ => 0, ρ⟩ fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunRead

end
-- ==== Proof.lean ====
/-
  The kernel averages, per node, the degree-0 to degree-2 real spherical harmonics of the unit relative
  positions of the edges that land on it; the reference does the same with plain array operations.

  Both gather the two end positions of every edge, subtract, normalise by `‖·‖ + ε`, take the harmonics,
  sum them per destination node and divide by `max(count, 1)`. They differ in three places, none of which
  changes a value on the extended reals once every source index is a valid (possibly negative) index:
  the kernel's gathers fill an out-of-range lane instead of clamping it — but a landing edge's destination
  is in range, and the precondition keeps every source in `[-N, N)`; the kernel multiplies by `1 / d` where
  the reference divides by `d`, the same number because `d ≠ 0`; and the kernel rebuilds the constant
  degree-0 column as `c₀ · count / max(count, 1)`, the reference's sum of `c₀ · 1 · 1` over the same edges.
  So the two results agree node by node and column by column, and the frames are the generated ones.
-/
import proofs.«421337_j6219112645415_3_alg».proof.Defs
import proofs.«421337_j6219112645415_3_alg».proof.Proof.Gen.Kernel
import proofs.«421337_j6219112645415_3_alg».proof.Proof.Gen.Kernel.Skeleton
import proofs.«421337_j6219112645415_3_alg».proof.Proof.Gen.Kernel.Launch
import proofs.«421337_j6219112645415_3_alg».proof.Proof.Gen.Kernel.Points
import proofs.«421337_j6219112645415_3_alg».proof.Proof.Gen.Kernel.Frame
import proofs.«421337_j6219112645415_3_alg».proof.Proof.Gen.KernelIdeal
import proofs.«421337_j6219112645415_3_alg».proof.Proof.Gen.KernelIdeal.Skeleton
import proofs.«421337_j6219112645415_3_alg».proof.Proof.Gen.KernelIdeal.Launch
import proofs.«421337_j6219112645415_3_alg».proof.Proof.Gen.KernelIdeal.Points
import proofs.«421337_j6219112645415_3_alg».proof.Proof.Gen.KernelIdeal.Frame
import proofs.«421337_j6219112645415_3_alg».proof.Proof.Gen.ReferenceIdeal
import proofs.«421337_j6219112645415_3_alg».proof.Proof.Gen.Pre_finite_inputs
import proofs.«421337_j6219112645415_3_alg».proof.Proof.Gen.ReferenceIdeal.Run
import proofs.«421337_j6219112645415_3_alg».proof.Proof.Gen.ReferenceIdeal.Read
import proofs.«421337_j6219112645415_3_alg».proof.Proof.SrcRange
import proofs.«421337_j6219112645415_3_alg».proof.Proof.Bridge
import proofs.«421337_j6219112645415_3_alg».proof.Proof.RefValue
import proofs.«421337_j6219112645415_3_alg».proof.Proof.KernelValue
import proofs.«421337_j6219112645415_3_alg».proof.Proof.KernelRun
import Idealize.ShloMosaic.Adequacy
import Idealize.ShloMosaic.Init

noncomputable section

namespace Cert.Proof

open Idealize.ShloMosaic Idealize.ShloMosaic.ValueIdx Idealize.SL.Sem

/-- The word-level kernel runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its generated run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The two idealized programs, from memories that agree on the arguments, end with equal results: at every
    node and column the kernel's result is `kerOut`, the reference's `refOut`, and those are one number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.RunRead.result m c, Cert.KernelIdeal.RunRead.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v87_eq, (hagree c).1, (hagree c).2.1, (hagree c).2.2]
  have hs : ∀ e : Fin 3200000, -100000 ≤ ((m ((c.tc : Thread Cert.KernelIdeal.nD Cert.KernelIdeal.τ).loc Cert.KernelIdeal.main_arg1)) (ix1 e)).toInt
      ∧ ((m ((c.tc : Thread Cert.KernelIdeal.nD Cert.KernelIdeal.τ).loc Cert.KernelIdeal.main_arg1)) (ix1 e)).toInt < 100000 :=
    fun e => Cert.SrcRange.src_range_of_pre _ _ _ (hpre c) (ix1 e)
  funext i
  obtain ⟨n, j, rfl⟩ : ∃ (n : Fin 100000) (j : Fin 9), i = ix2 n j := ⟨i 0, i 1, eq_ix2 i⟩
  rw [Cert.RefSide.ref_apply, ← Cert.Edges.kerOut_eq_refOut]
  exact (Cert.KernelIdeal.Result.ker_apply _ _ _ hs n j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
